-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x512x512 : Shape := ⟨4, ![64, 2, 512, 512]⟩
abbrev S_ : Shape := ⟨0, ![]⟩

class Facts : Prop where
  bcast_S_S64x2x512x512 : S_.BroadcastsInDim S64x2x512x512 (![] : Fin 0 → Fin S64x2x512x512.rank)
  reducesTo_S64x2x512x512_S_d0_1_2_3 : S64x2x512x512.ReducesTo [0, 1, 2, 3] S_
  h_S_ : 0 < S_.numel

variable [Facts]

def fn {F : FTy → Type} [FloatOps F] (main_arg0 : FVec F S64x2x512x512 .f32) (main_arg1 : FVec F S64x2x512x512 .f32) : IVec S_ 1 :=
  let main_v0 : FVec F S64x2x512x512 .f32 := Host.absf main_arg0
  let main_cst : FVec F S_ .f32 := constant S_ .f32 0x7F800000#32
  let main_v1 : FVec F S64x2x512x512 .f32 := broadcastInDim S64x2x512x512 ![] bcast_S_S64x2x512x512 main_cst
  let main_v2 : IVec S64x2x512x512 1 := cmpf .olt main_v0 main_v1
  let main_c : IVec S_ 1 := constantI S_ 1 1#1
  let main_v3 : IVec S_ 1 := (fun x v => Host.reduce IntOp.andi x v reducesTo_S64x2x512x512_S_d0_1_2_3 h_S_) main_v2 main_c
  let main_v4 : FVec F S64x2x512x512 .f32 := Host.absf main_arg1
  let main_cst_0 : FVec F S_ .f32 := constant S_ .f32 0x7F800000#32
  let main_v5 : FVec F S64x2x512x512 .f32 := broadcastInDim S64x2x512x512 ![] bcast_S_S64x2x512x512 main_cst_0
  let main_v6 : IVec S64x2x512x512 1 := cmpf .olt main_v4 main_v5
  let main_c_1 : IVec S_ 1 := constantI S_ 1 1#1
  let main_v7 : IVec S_ 1 := (fun x v => Host.reduce IntOp.andi x v reducesTo_S64x2x512x512_S_d0_1_2_3 h_S_) main_v6 main_c_1
  let main_v8 : IVec S_ 1 := andi main_v3 main_v7
  main_v8
-- ==== Kernel.lean ====
abbrev S64x2x512x512 : Shape := ⟨4, ![64, 2, 512, 512]⟩
abbrev S262144x128 : Shape := ⟨2, ![262144, 128]⟩
abbrev S1x262144x128 : Shape := ⟨3, ![1, 262144, 128]⟩
abbrev S2x262144x128 : Shape := ⟨3, ![2, 262144, 128]⟩
abbrev S2x16x16 : Shape := ⟨3, ![2, 16, 16]⟩
abbrev S1x1024x128 : Shape := ⟨3, ![1, 1024, 128]⟩
abbrev S1x16x16 : Shape := ⟨3, ![1, 16, 16]⟩
abbrev S16x16 : Shape := ⟨2, ![16, 16]⟩
abbrev S1024x128 : Shape := ⟨2, ![1024, 128]⟩
abbrev S131072x1 : Shape := ⟨2, ![131072, 1]⟩
abbrev S1x16 : Shape := ⟨2, ![1, 16]⟩
abbrev S131072x16 : Shape := ⟨2, ![131072, 16]⟩
abbrev S2x256 : Shape := ⟨2, ![2, 256]⟩
abbrev S1x256 : Shape := ⟨2, ![1, 256]⟩
abbrev S256 : Shape := ⟨1, ![256]⟩
abbrev S_ : Shape := ⟨0, ![]⟩

abbrev nBuf : Space → Nat
  | .hbm => 39
  | .vmem => 5
  | .smem => 0
  | _ => 0

abbrev bufTy : (tb : Table) → Fin (tcTables nBuf tb) → BufTy
  | .hbm, ⟨0, _⟩ => ⟨S64x2x512x512, .f32⟩
  | .hbm, ⟨1, _⟩ => ⟨S64x2x512x512, .f32⟩
  | .hbm, ⟨2, _⟩ => ⟨S262144x128, .f32⟩
  | .hbm, ⟨3, _⟩ => ⟨S262144x128, .f32⟩
  | .hbm, ⟨4, _⟩ => ⟨S1x262144x128, .f32⟩
  | .hbm, ⟨5, _⟩ => ⟨S1x262144x128, .f32⟩
  | .hbm, ⟨6, _⟩ => ⟨S2x262144x128, .f32⟩
  | .hbm, ⟨7, _⟩ => ⟨S2x16x16, .f32⟩
  | .hbm, ⟨8, _⟩ => ⟨S2x256, .f32⟩
  | .hbm, ⟨9, _⟩ => ⟨S1x256, .f32⟩
  | .hbm, ⟨10, _⟩ => ⟨S256, .f32⟩
  | .hbm, ⟨11, _⟩ => ⟨S1x256, .f32⟩
  | .hbm, ⟨12, _⟩ => ⟨S256, .f32⟩
  | .hbm, ⟨13, _⟩ => ⟨S_, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1x1024x128, .f32⟩
  | .local _ .vmem, ⟨1, _⟩ => ⟨S1x1024x128, .f32⟩
  | .local _ .vmem, ⟨2, _⟩ => ⟨S1x16x16, .f32⟩
  | .local _ .vmem, ⟨3, _⟩ => ⟨S1x16x16, .f32⟩
  | .local _ .vmem, ⟨4, _⟩ => ⟨S16x16, .f32⟩
  | _, _ => ⟨S64x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 256], ![false, false]⟩

def k0_cond2 (i : grid0.Coords) : BitVec 1 :=
  let arg1 : BitVec 32 := BitVec.ofNat 32 (i 1).val
  let c255_i32_19 : BitVec 32 := 255#32
  let v72 : BitVec 1 := Scalar.cmpi .eq arg1 c255_i32_19
  let v73 : BitVec 32 := Scalar.extui v72
  let c0_i32_20 : BitVec 32 := 0#32
  let v74 : BitVec 1 := Scalar.cmpi .ne v73 c0_i32_20
  v74

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S64x2x512x512_S262144x128 : S64x2x512x512.ShapeCasts S262144x128
  bcast_S262144x128_S1x262144x128_1_2 : S262144x128.BroadcastsInDim S1x262144x128 (![1, 2] : Fin 2 → Fin S1x262144x128.rank)
  concatenates_S1x262144x128_S1x262144x128_S2x262144x128_d0 : Shape.Concatenates [S1x262144x128, S1x262144x128] S2x262144x128 0
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  natLt_1_32 : 1 < 32
  shapeCasts_S1024x128_S131072x1 : S1024x128.ShapeCasts S131072x1
  iota_S1x16_d1_w32 : S1x16.Iotas .tc 32 [1]
  broadcasts_S131072x1_S131072x16 : S131072x1.Broadcasts S131072x16
  broadcasts_S1x16_S131072x16 : S1x16.Broadcasts S131072x16
  bitsLt_bf16_f32 : FTy.bits .bf16 < FTy.bits .f32
  inb_S1x16x16_S1x16x16_0_0_0 : ∀ a, (![0, 0, 0] : Fin 3 → Nat) a + S1x16x16.size a ≤ S1x16x16.size a
  h_S1x16x16 : 0 < S1x16x16.numel
  shapeCasts_S1x16x16_S16x16 : S1x16x16.ShapeCasts S16x16
  shapeCasts_S16x16_S1x16x16 : S16x16.ShapeCasts S1x16x16
  shapeCasts_S2x16x16_S2x256 : S2x16x16.ShapeCasts S2x256
  slices_S2x256_S1x256_0_0 : S2x256.Slices ![0, 0] S1x256
  shapeCasts_S1x256_S256 : S1x256.ShapeCasts S256
  slices_S2x256_S1x256_1_0 : S2x256.Slices ![1, 0] S1x256
  reducesTo_S256_S_d0 : S256.ReducesTo [0] S_
  h_S_ : 0 < S_.numel
  bcast_S_S256 : S_.BroadcastsInDim S256 (![] : Fin 0 → Fin S256.rank)
  dot_S131072x16_S131072x16_S16x16_0_0_1_1_n_n_wf : DotDims.WF S131072x16 S131072x16 S16x16 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S2x262144x128.size a
  hwx0_0 : ∀ i : grid0.Coords, EltTy.bits .f32 = 32 ∨ (Rect.block (s := S2x262144x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x16.size a ≤ S2x16x16.size a
  hwx0_1 : ∀ i : grid0.Coords, EltTy.bits .f32 = 32 ∨ (Rect.block (s := S2x16x16) S1x16x16.size (cc0_transform_1 i) (hinb0_1 i)).WholeWords (EltTy.packing .f32)

variable [Facts₀]

def dot_S131072x16_S131072x16_S16x16_0_0_1_1_n_n : DotDims S131072x16 S131072x16 S16x16 where
  lhsContracting := [0]
  rhsContracting := [0]
  lhsNonContracting := [1]
  rhsNonContracting := [1]
  lhsBatch := []
  rhsBatch := []
  wf := dot_S131072x16_S131072x16_S16x16_0_0_1_1_n_n_wf

abbrev win0_0 : Pipeline.Window sig grid0 :=
  Pipeline.Window.ofSpec (Memref.whole main_v4) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x16x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S64x2x512x512 : Shape := ⟨4, ![64, 2, 512, 512]⟩
abbrev S33554432 : Shape := ⟨1, ![33554432]⟩
abbrev S_ : Shape := ⟨0, ![]⟩
abbrev S256 : Shape := ⟨1, ![256]⟩
abbrev S33554432x1 : Shape := ⟨2, ![33554432, 1]⟩

abbrev nBuf : Space → Nat
  | .hbm => 86
  | .vmem => 0
  | .smem => 0
  | _ => 0

abbrev bufTy : (tb : Table) → Fin (tcTables nBuf tb) → BufTy
  | .hbm, ⟨0, _⟩ => ⟨S64x2x512x512, .f32⟩
  | .hbm, ⟨1, _⟩ => ⟨S64x2x512x512, .f32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .f32⟩
  | .hbm, ⟨6, _⟩ => ⟨S_, .f32⟩
  | .hbm, ⟨7, _⟩ => ⟨S33554432, .f32⟩
  | .hbm, ⟨8, _⟩ => ⟨S33554432, .f32⟩
  | .hbm, ⟨9, _⟩ => ⟨S33554432, .f32⟩
  | .hbm, ⟨10, _⟩ => ⟨S33554432, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S33554432, .i32⟩
  | .hbm, ⟨15, _⟩ => ⟨S33554432, .i32⟩
  | .hbm, ⟨16, _⟩ => ⟨S_, .i32⟩
  | .hbm, ⟨17, _⟩ => ⟨S33554432, .i32⟩
  | .hbm, ⟨18, _⟩ => ⟨S33554432, .i32⟩
  | .hbm, ⟨19, _⟩ => ⟨S_, .f32⟩
  | .hbm, ⟨20, _⟩ => ⟨S33554432, .f32⟩
  | .hbm, ⟨21, _⟩ => ⟨S33554432, .i1⟩
  | .hbm, ⟨22, _⟩ => ⟨S_, .f32⟩
  | .hbm, ⟨23, _⟩ => ⟨S33554432, .f32⟩
  | .hbm, ⟨24, _⟩ => ⟨S33554432, .i1⟩
  | .hbm, ⟨25, _⟩ => ⟨S33554432, .i1⟩
  | .hbm, ⟨26, _⟩ => ⟨S33554432, .f32⟩
  | .hbm, ⟨27, _⟩ => ⟨S_, .f32⟩
  | .hbm, ⟨28, _⟩ => ⟨S256, .f32⟩
  | .hbm, ⟨29, _⟩ => ⟨S33554432x1, .i32⟩
  | .hbm, ⟨30, _⟩ => ⟨S256, .f32⟩
  | .hbm, ⟨31, _⟩ => ⟨S33554432, .f32⟩
  | .hbm, ⟨32, _⟩ => ⟨S_, .f32⟩
  | .hbm, ⟨33, _⟩ => ⟨S33554432, .f32⟩
  | .hbm, ⟨34, _⟩ => ⟨S33554432, .f32⟩
  | .hbm, ⟨35, _⟩ => ⟨S_, .f32⟩
  | .hbm, ⟨36, _⟩ => ⟨S33554432, .f32⟩
  | .hbm, ⟨37, _⟩ => ⟨S33554432, .f32⟩
  | .hbm, ⟨38, _⟩ => ⟨S33554432, .f32⟩
  | .hbm, ⟨39, _⟩ => ⟨S33554432, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S33554432, .i32⟩
  | .hbm, ⟨44, _⟩ => ⟨S33554432, .i32⟩
  | .hbm, ⟨45, _⟩ => ⟨S_, .i32⟩
  | .hbm, ⟨46, _⟩ => ⟨S33554432, .i32⟩
  | .hbm, ⟨47, _⟩ => ⟨S33554432, .i32⟩
  | .hbm, ⟨48, _⟩ => ⟨S_, .f32⟩
  | .hbm, ⟨49, _⟩ => ⟨S33554432, .f32⟩
  | .hbm, ⟨50, _⟩ => ⟨S33554432, .i1⟩
  | .hbm, ⟨51, _⟩ => ⟨S_, .f32⟩
  | .hbm, ⟨52, _⟩ => ⟨S33554432, .f32⟩
  | .hbm, ⟨53, _⟩ => ⟨S33554432, .i1⟩
  | .hbm, ⟨54, _⟩ => ⟨S33554432, .i1⟩
  | .hbm, ⟨55, _⟩ => ⟨S33554432, .f32⟩
  | .hbm, ⟨56, _⟩ => ⟨S_, .f32⟩
  | .hbm, ⟨57, _⟩ => ⟨S256, .f32⟩
  | .hbm, ⟨58, _⟩ => ⟨S33554432x1, .i32⟩
  | .hbm, ⟨59, _⟩ => ⟨S256, .f32⟩
  | .hbm, ⟨60, _⟩ => ⟨S_, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S256, .f32⟩
  | .hbm, ⟨68, _⟩ => ⟨S256, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S256, .f32⟩
  | .hbm, ⟨75, _⟩ => ⟨S256, .f32⟩
  | .hbm, ⟨76, _⟩ => ⟨S_, .f32⟩
  | .hbm, ⟨77, _⟩ => ⟨S256, .f32⟩
  | .hbm, ⟨78, _⟩ => ⟨S256, .f32⟩
  | .hbm, ⟨79, _⟩ => ⟨S256, .f32⟩
  | .hbm, ⟨80, _⟩ => ⟨S256, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S64x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_c_8 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v24 : Ref sig .tc := ⟨.hbm, 47, rfl⟩
abbrev main_cst_9 : Ref sig .tc := ⟨.hbm, 48, rfl⟩
abbrev main_v25 : Ref sig .tc := ⟨.hbm, 49, rfl⟩
abbrev main_v26 : Ref sig .tc := ⟨.hbm, 50, rfl⟩
abbrev main_cst_10 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_11 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_12 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_13 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_14 : Ref sig .tc := ⟨.hbm, 69, rfl⟩
abbrev main_v41 : Ref sig .tc := ⟨.hbm, 70, rfl⟩
abbrev main_v42 : Ref sig .tc := ⟨.hbm, 71, rfl⟩
abbrev main_cst_15 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_16 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_17 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩

abbrev nD : Nat := 1
abbrev τ : Topo := Topo.v7x

variable {F : FTy → Type} [FloatOps F]

class Facts₀ : Prop where
  shapeCasts_S64x2x512x512_S33554432 : S64x2x512x512.ShapeCasts S33554432
  bcast_S_S33554432 : S_.BroadcastsInDim S33554432 (![] : Fin 0 → Fin S33554432.rank)
  bcast_S_S256 : S_.BroadcastsInDim S256 (![] : Fin 0 → Fin S256.rank)
  bcast_S33554432_S33554432x1_0 : S33554432.BroadcastsInDim S33554432x1 (![0] : Fin 1 → Fin S33554432x1.rank)
  reducesTo_S256_S_d0 : S256.ReducesTo [0] S_
  h_S_ : 0 < S_.numel
  scatter_S256_S33554432x1_S33554432_n_0_0_1_wf : ScatterDims.WF S256 S33554432x1 S33554432 [] [0] [0] 1

variable [Facts₀]

def scatter_S256_S33554432x1_S33554432_n_0_0_1 : ScatterDims S256 S33554432x1 S33554432 where
  updateWindowDims := []
  insertedWindowDims := [0]
  scatterDimsToOperandDims := [0]
  indexVectorDim := 1
  wf := scatter_S256_S33554432x1_S33554432_n_0_0_1_wf

class Facts : Prop extends Facts₀ where

variable [Facts]
-- ==== Proof.CaseValues.lean ====
/-
  What each control case of the kernel body leaves behind, as values.

  The body keeps a 16 × 16 table across the points of a row of the grid. At the row's first point it stores the
  zero table and then the update of that zero table by the point's tile; at every other point it stores the update
  of the table the point before left; at the row's last point it also copies the updated table to the result block
  under a leading unit axis. The update is one pure function `step` of the tile and the table held before.
-/
import proofs.«135395_j89893665505443_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offsets of a whole rank-2 and rank-3 block, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The table after a point: the update of the table held before by the point's tile. -/
abbrev step (x0 : Vec F S1x1024x128 .f32) (acc : Vec F S16x16 .f32) : Vec F S16x16 .f32 :=
  k0_pay1 (k0_pay5 x0) (k0_pay6 x0) (k0_pay7 x0) (k0_pay8 x0) (k0_pay9 x0) acc

/-- A middle point of a row leaves the update of the table it found. -/
theorem scratch_B (c : Dev nD) (i : grid0.Coords) (a2 : Memref sig .tc .vmem S1x1024x128 .f32) (h2 : a2.IsWhole)
    (a3 : Memref sig .tc .vmem S1x16x16 .f32) (h3 : a3.IsWhole) (a4 : Memref sig .tc .vmem S16x16 .f32) (h4 : a4.IsWhole)
    (hc0 : ¬cond0_0 i) (hc1 : ¬cond0_1 i) (x0 : Vec F S1x1024x128 .f32) (xs0 : Vec F S16x16 .f32) :
    sout0_B_0 c i a2 h2 a3 h3 a4 h4 hc0 hc1 x0 xs0 = step x0 xs0 := by
  unfold sout0_B_0
  rw [View.read_writes_eq_canon _ _ _ (scover0_B_0 c i a2 h2 a3 h3 a4 h4 hc0 hc1 x0 xs0)]
  unfold kernelRun0_B
  dsimp only
  sl_unfold_words
  rw [View.canon_unit_zero hz2]
  simp only [View.readAt_eq_ld, h2.read_unread, h4.read_unread, View.ld_unit_zero (S := S1x1024x128) hz3, View.ld_unit_zero (S := S16x16) hz2]

/-- The first point of a row leaves the update of the zero table: the reset is read back by the update. -/
theorem scratch_A (c : Dev nD) (i : grid0.Coords) (a2 : Memref sig .tc .vmem S1x1024x128 .f32) (h2 : a2.IsWhole)
    (a3 : Memref sig .tc .vmem S1x16x16 .f32) (h3 : a3.IsWhole) (a4 : Memref sig .tc .vmem S16x16 .f32) (h4 : a4.IsWhole)
    (hc0 : cond0_0 i) (hc1 : ¬cond0_1 i) (x0 : Vec F S1x1024x128 .f32) :
    sout0_A_0 c i a2 h2 a3 h3 a4 h4 hc0 hc1 x0 = step x0 k0_pay3 := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S16x16) hz2, View.readCov_unit_zero (S := S16x16) _ hz2]
  simp only [View.readAt_eq_ld, h2.read_unread, View.ld_unit_zero (S := S1x1024x128) hz3]

/-- The last point of a row leaves the update of the table it found, -/
theorem scratch_C (c : Dev nD) (i : grid0.Coords) (a2 : Memref sig .tc .vmem S1x1024x128 .f32) (h2 : a2.IsWhole)
    (a3 : Memref sig .tc .vmem S1x16x16 .f32) (h3 : a3.IsWhole) (a4 : Memref sig .tc .vmem S16x16 .f32) (h4 : a4.IsWhole)
    (hc0 : ¬cond0_0 i) (hc1 : cond0_1 i) (x0 : Vec F S1x1024x128 .f32) (xs0 : Vec F S16x16 .f32) :
    sout0_C_0 c i a2 h2 a3 h3 a4 h4 hc0 hc1 x0 xs0 = step x0 xs0 := by
  unfold sout0_C_0
  rw [View.read_writes_eq_canon _ _ _ (scover0_C_0 c i a2 h2 a3 h3 a4 h4 hc0 hc1 x0 xs0)]
  unfold kernelRun0_C
  dsimp only
  sl_unfold_words
  rw [View.canon_unit_zero hz2]
  simp only [View.readAt_eq_ld, h2.read_unread, h4.read_unread, View.ld_unit_zero (S := S1x1024x128) hz3, View.ld_unit_zero (S := S16x16) hz2]

/-- and hands that same table to the result block. -/
theorem out_C (c : Dev nD) (i : grid0.Coords) (a2 : Memref sig .tc .vmem S1x1024x128 .f32) (h2 : a2.IsWhole)
    (a3 : Memref sig .tc .vmem S1x16x16 .f32) (h3 : a3.IsWhole) (a4 : Memref sig .tc .vmem S16x16 .f32) (h4 : a4.IsWhole)
    (hc0 : ¬cond0_0 i) (hc1 : cond0_1 i) (x0 : Vec F S1x1024x128 .f32) (xs0 : Vec F S16x16 .f32) :
    out0_C_1 c i a2 h2 a3 h3 a4 h4 hc0 hc1 x0 xs0 = k0_pay2 (step x0 xs0) := by
  unfold out0_C_1
  rw [View.read_writes_eq_canon _ _ _ (cover0_C_1 c i a2 h2 a3 h3 a4 h4 hc0 hc1 x0 xs0)]
  unfold kernelRun0_C
  dsimp only
  sl_unfold_words
  rw [View.canon_unit_zero hz3, View.readCov_unit_zero (S := S16x16) _ hz2]
  simp only [View.readAt_eq_ld, h2.read_unread, h4.read_unread, View.ld_unit_zero (S := S1x1024x128) hz3, View.ld_unit_zero (S := S16x16) hz2]

end Cert.KernelIdeal.Pieces

end
-- ==== Proof.BinCount.lean ====
/-
  The histogram both programs compute, element by element.

  A value `x` is counted when `-1 ≤ x ≤ 1`, in the bin `⌊(x + 1) / (1/128)⌋` read as a signed word and clipped
  into `[0, 255]`. One program splits the bin `b` into its two base-16 digits `(b / 16, b - 16 · (b / 16))`, replaces
  both by `-1` for a value out of range, and multiplies the two 16-wide indicator rows; the other adds the 0/1 weight
  of `x` at position `b` of a 256-vector. At a cell `(h, l)` the product of the two indicator entries is the weight
  of `x` when `b = 16 h + l` and `0` otherwise: the digits of a number below 256 determine it.
  The data are flat: element `n` of a [64, 2, 512, 512] array in row-major order, `flat x n`.
-/
import Idealize.ShloMosaic.PureOps.Ideal
import Idealize.ShloMosaic.Lib.ValueIdx

noncomputable section

open scoped BigOperators

namespace Cert.Hist

open Idealize.ShloMosaic

/-- The test `-1 ≤ x ≤ 1` as a one-bit word: the conjunction of the two ordered comparisons. -/
def inRange (x : EReal) : BitVec 1 :=
  IntOp.andi (FloatOps.cmpf (F := Ideal) (φ := .f32) .oge x (FloatOps.ofBits (F := Ideal) .f32 0xBF800000#32))
    (FloatOps.cmpf (F := Ideal) (φ := .f32) .ole x (FloatOps.ofBits (F := Ideal) .f32 0x3F800000#32))

/-- The bin of `x`: `⌊(x - (-1)) / (1/128)⌋` converted to a signed 32-bit word, then clipped into `[0, 255]`. -/
def binWord (x : EReal) : BitVec 32 :=
  IntOp.minsi 255#32 (IntOp.maxsi 0#32 (FloatOps.fptosi (F := Ideal) (φ := .f32) 32
    (FloatOps.floor (F := Ideal) (φ := .f32) (FloatOps.divf (F := Ideal) (φ := .f32)
      (FloatOps.subf (F := Ideal) (φ := .f32) x (FloatOps.ofBits (F := Ideal) .f32 0xBF800000#32))
      (FloatOps.ofBits (F := Ideal) .f32 0x3C000000#32)))))

/-- The weight of `x` in its bin: `1` in range, `0` out of it. -/
def weight (x : EReal) : EReal := (((inRange x).toNat : ℝ) : EReal)

/-- The high base-16 digit of a bin word, as floor division by 16 is spelled over words: the truncating quotient,
    lowered by one when the signs of the operands differ and the remainder is not zero. -/
def hiOf (b : BitVec 32) : BitVec 32 :=
  Scalar.select
    (IntOp.andi
      (IntOp.cmpi .ne
        (IntOp.subi ((IntOp.cmpi .sgt b 0#32).setWidth 32) ((IntOp.cmpi .slt b 0#32).setWidth 32))
        (Scalar.subi (Scalar.extui (Scalar.cmpi .sgt 16#32 0#32)) (Scalar.extui (Scalar.cmpi .slt 16#32 0#32))))
      (IntOp.cmpi .ne (IntOp.remsi .vector b 16#32) 0#32))
    (IntOp.subi (IntOp.divsi .vector b 16#32) 1#32)
    (IntOp.divsi .vector b 16#32)

/-- The low base-16 digit: the bin less sixteen times its high digit. -/
def loOf (b : BitVec 32) : BitVec 32 := IntOp.subi b (IntOp.muli (hiOf b) 16#32)

/-- The high digit of `x`'s bin, or the word `-1` (no digit) when `x` is out of range. -/
def hiWord (x : EReal) : BitVec 32 := Scalar.select (inRange x) (hiOf (binWord x)) 4294967295#32

/-- The low digit of `x`'s bin, or the word `-1` when `x` is out of range. -/
def loWord (x : EReal) : BitVec 32 := Scalar.select (inRange x) (loOf (binWord x)) 4294967295#32

/-- An indicator entry: `1` when the two words are equal, `0` otherwise (the comparison's bit, widened and
    converted). -/
def oneHot (v k : BitVec 32) : EReal := (((((IntOp.cmpi .eq v k).setWidth 32).toInt : ℝ)) : EReal)

/-- What `x` adds to cell `(h, l)`: its weight when its bin is `16 h + l`, nothing otherwise. -/
def hit (x : EReal) (h l : Fin 16) : EReal :=
  if (binWord x).toInt = ((16 * h.val + l.val : ℕ) : ℤ) then weight x else 0

/-- A clipped word is a number below 256: the signed maximum with 0 and minimum with 255 lands in `[0, 255]`. -/
private theorem clip_ofNat (v : BitVec 32) :
    ∃ n : Fin 256, IntOp.minsi 255#32 (IntOp.maxsi 0#32 v) = BitVec.ofNat 32 n.val := by
  have key : (IntOp.minsi 255#32 (IntOp.maxsi 0#32 v)).toNat < 256 := by
    unfold IntOp.minsi IntOp.maxsi
    simp only [BitVec.slt_eq_decide, decide_eq_true_eq]
    have h0 : (0#32).toInt = 0 := by decide
    have h255 : (255#32).toInt = 255 := by decide
    have hv := BitVec.toInt_eq_toNat_cond v
    have hlt := v.isLt
    split_ifs with h1 h2 h2
    · decide
    · decide
    · decide
    · rw [h0] at h1
      rw [h255] at h2
      split_ifs at hv <;> omega
  exact ⟨⟨_, key⟩, by simp⟩

/-- The two base-16 digits of every number below 256, as the word operations compute them. -/
private theorem digits : ∀ n : Fin 256,
    hiOf (BitVec.ofNat 32 n.val) = BitVec.ofNat 32 (n.val / 16) ∧
      loOf (BitVec.ofNat 32 n.val) = BitVec.ofNat 32 (n.val % 16) := by decide +kernel

/-- A number below 256 read back from its word as a signed integer is itself. -/
private theorem toInt_small : ∀ n : Fin 256, (BitVec.ofNat 32 n.val).toInt = (n.val : ℤ) := by decide +kernel

/-- An indicator entry is `1` on equal words and `0` otherwise. -/
private theorem oneHot_eq (v k : BitVec 32) : oneHot v k = if v = k then 1 else 0 := by
  unfold oneHot IntOp.cmpi
  by_cases h : v = k
  · subst h; simp
  · have hb : (v == k) = false := by simpa using h
    simp [hb, h]

/-- Words of numbers below `2 ^ 32` are equal exactly when the numbers are. -/
private theorem ofNat_eq_iff {p q : ℕ} (hp : p < 4294967296) (hq : q < 4294967296) :
    BitVec.ofNat 32 p = BitVec.ofNat 32 q ↔ p = q := by
  constructor
  · intro h
    have := congrArg BitVec.toNat h
    simp only [BitVec.toNat_ofNat] at this
    omega
  · rintro rfl; rfl

/-- A one-bit word is `0` or `1`. -/
private theorem bit_cases : ∀ b : BitVec 1, b = 0 ∨ b = 1 := by decide

/-- The product of the two indicator entries at `(h, l)` is the count form: a clipped bin is below 256, so its two
    digits are `(b / 16, b % 16)` and equal `(h, l)` exactly when `b = 16 h + l`; out of range both entries are `0`
    against every digit, and the weight is `0`. -/
theorem oneHot_mul_oneHot (x : EReal) (h l : Fin 16) :
    oneHot (hiWord x) (BitVec.ofNat 32 h.val) * oneHot (loWord x) (BitVec.ofNat 32 l.val) = hit x h l := by
  obtain ⟨n, hn⟩ : ∃ n : Fin 256, binWord x = BitVec.ofNat 32 n.val := clip_ofNat _
  obtain ⟨hhi, hlo⟩ := digits n
  have hInt : (binWord x).toInt = (n.val : ℤ) := by rw [hn]; exact toInt_small n
  have hh := h.isLt
  have hl := l.isLt
  have hnlt := n.isLt
  have e1 : (BitVec.ofNat 32 (n.val / 16) = BitVec.ofNat 32 h.val) ↔ n.val / 16 = h.val :=
    ofNat_eq_iff (by omega) (by omega)
  have e2 : (BitVec.ofNat 32 (n.val % 16) = BitVec.ofNat 32 l.val) ↔ n.val % 16 = l.val :=
    ofNat_eq_iff (by omega) (by omega)
  have e3 : ((n.val : ℤ) = ((16 * h.val + l.val : ℕ) : ℤ)) ↔ (n.val / 16 = h.val ∧ n.val % 16 = l.val) := by
    constructor
    · intro e
      have e' : n.val = 16 * h.val + l.val := by exact_mod_cast e
      omega
    · rintro ⟨a, b⟩
      have e' : n.val = 16 * h.val + l.val := by omega
      exact_mod_cast e'
  have m1 : ¬ (4294967295#32 = BitVec.ofNat 32 h.val) := by
    intro e
    have := (ofNat_eq_iff (p := 4294967295) (q := h.val) (by omega) (by omega)).mp e
    omega
  rw [oneHot_eq, oneHot_eq]
  unfold hit hiWord loWord weight Scalar.select
  rw [hInt, hn, hhi, hlo]
  rcases bit_cases (inRange x) with hr | hr
  · rw [hr]
    have z1 : ¬ ((0 : BitVec 1) = 1) := by decide
    have z2 : (0 : BitVec 1).toNat = 0 := by decide
    rw [if_neg z1, if_neg z1, if_neg m1, z2]
    simp
  · rw [hr]
    have o2 : (1 : BitVec 1).toNat = 1 := by decide
    rw [if_pos rfl, if_pos rfl, o2]
    simp only [e1, e2, e3]
    by_cases a : n.val / 16 = h.val <;> by_cases b : n.val % 16 = l.val <;> simp [a, b]

/-- Summed over a family of values, the count form is the sum of the weights over the members of the bin. -/
theorem sum_hit_eq_sum_filter {ι : Type} [Fintype ι] (X : ι → EReal) (h l : Fin 16) :
    ∑ e, hit (X e) h l
      = ∑ e ∈ Finset.univ.filter (fun e => (binWord (X e)).toInt = ((16 * h.val + l.val : ℕ) : ℤ)), weight (X e) := by
  unfold hit
  rw [Finset.sum_filter]

/-- Consecutive blocks of `m` terms, `k` of them, are the first `m * k` terms in order. -/
private theorem sum_blocks (g : ℕ → EReal) (m : ℕ) : ∀ k : ℕ,
    ∑ s ∈ Finset.range k, ∑ j ∈ Finset.range m, g (m * s + j) = ∑ e ∈ Finset.range (m * k), g e
  | 0 => by simp
  | k + 1 => by
    rw [Finset.sum_range_succ, sum_blocks g m k, Nat.mul_succ, Finset.sum_range_add]

/-- 256 consecutive tiles of 131072 elements are the 33554432 elements, in order. -/
theorem sum_tiles (g : ℕ → EReal) :
    ∑ s ∈ Finset.range 256, ∑ j : Fin 131072, g (131072 * s + j.val) = ∑ e : Fin 33554432, g e.val := by
  have hN : 131072 * 256 = 33554432 := by norm_num
  calc ∑ s ∈ Finset.range 256, ∑ j : Fin 131072, g (131072 * s + j.val)
      = ∑ s ∈ Finset.range 256, ∑ j ∈ Finset.range 131072, g (131072 * s + j) :=
        Finset.sum_congr rfl (fun s _ => Fin.sum_univ_eq_sum_range (fun j => g (131072 * s + j)) 131072)
    _ = ∑ e ∈ Finset.range (131072 * 256), g e := sum_blocks g 131072 256
    _ = ∑ e ∈ Finset.range 33554432, g e := by rw [hN]
    _ = ∑ e : Fin 33554432, g e.val := (Fin.sum_univ_eq_sum_range g 33554432).symm

/-! ## The flat view of an argument array -/

/-- The arguments' shape and its flattening. -/
abbrev SArg : Shape := ⟨4, ![64, 2, 512, 512]⟩
abbrev SFlat : Shape := ⟨1, ![33554432]⟩

theorem argCasts : SArg.ShapeCasts SFlat := by decide

/-- Element `n` of an argument array in row-major order (`0` past the end, which nothing reads). -/
def flat (x : SArg.Idx → EReal) (n : ℕ) : EReal :=
  if h : n < 33554432 then shapeCast SFlat x argCasts (ValueIdx.ix1 ⟨n, h⟩) else 0

end Cert.Hist

end
-- ==== Proof.TileUpdate.lean ====
/-
  One tile's contribution to the 16 × 16 table of digit pairs.

  A tile is 1024 × 128 values, flattened row by row to a column of 131072; against the row of the sixteen digits
  each value gives two 16-wide indicator rows, and the table's update is the accumulator plus the product of the
  two indicator matrices contracted over the 131072 values: at cell `(h, l)` the sum over the tile of the product
  of the two entries, which is the count form of `Cert.Hist.hit`.
-/
import proofs.«135395_j89893665505443_1_alg».proof.Proof.Gen.KernelIdeal.Skeleton
import proofs.«135395_j89893665505443_1_alg».proof.Proof.BinCount
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Cert.Hist Idealize.ShloMosaic Idealize.ShloMosaic.ValueIdx

/-- Value `j` of a tile in row-major order: row `j / 128`, lane `j % 128`. -/
abbrev tileIx (j : Fin 131072) : S1x1024x128.Idx :=
  ix3 (0 : Fin 1) (⟨j.val / 128, by have := j.isLt; omega⟩ : Fin 1024) (⟨j.val % 128, Nat.mod_lt _ (by decide)⟩ : Fin 128)

/-! ## The product of the two indicator matrices at a cell -/

/-- On the contracted axis of the left operand the index is the contraction position. -/
theorem lhs_contracted (i : S16x16.Idx) (q : dot_S131072x16_S131072x16_S16x16_0_0_1_1_n_n.contr.Idx) :
    (dot_S131072x16_S131072x16_S16x16_0_0_1_1_n_n.lhsIdx i q 0).val = (q ⟨0, by decide⟩).val :=
  dot_S131072x16_S131072x16_S16x16_0_0_1_1_n_n.lhsIdx_val_of_single rfl i q

/-- On the free axis of the left operand the index is the cell's row. -/
theorem lhs_free (i : S16x16.Idx) (q : dot_S131072x16_S131072x16_S16x16_0_0_1_1_n_n.contr.Idx) :
    (dot_S131072x16_S131072x16_S16x16_0_0_1_1_n_n.lhsIdx i q 1).val = (i 0).val := by
  unfold DotDims.lhsIdx
  rw [dif_neg (show ¬(1 : Fin S131072x16.rank) ∈ dot_S131072x16_S131072x16_S16x16_0_0_1_1_n_n.lhsBatch by decide),
    dif_pos (show (1 : Fin S131072x16.rank) ∈ dot_S131072x16_S131072x16_S16x16_0_0_1_1_n_n.lhsNonContracting by decide)]
  rfl

/-- On the contracted axis of the right operand the index is the contraction position. -/
theorem rhs_contracted (i : S16x16.Idx) (q : dot_S131072x16_S131072x16_S16x16_0_0_1_1_n_n.contr.Idx) :
    (dot_S131072x16_S131072x16_S16x16_0_0_1_1_n_n.rhsIdx i q 0).val = (q ⟨0, by decide⟩).val :=
  dot_S131072x16_S131072x16_S16x16_0_0_1_1_n_n.rhsIdx_val_of_single rfl i q

/-- On the free axis of the right operand the index is the cell's column. -/
theorem rhs_free (i : S16x16.Idx) (q : dot_S131072x16_S131072x16_S16x16_0_0_1_1_n_n.contr.Idx) :
    (dot_S131072x16_S131072x16_S16x16_0_0_1_1_n_n.rhsIdx i q 1).val = (i 1).val := by
  unfold DotDims.rhsIdx
  rw [dif_neg (show ¬(1 : Fin S131072x16.rank) ∈ dot_S131072x16_S131072x16_S16x16_0_0_1_1_n_n.rhsBatch by decide),
    dif_pos (show (1 : Fin S131072x16.rank) ∈ dot_S131072x16_S131072x16_S16x16_0_0_1_1_n_n.rhsNonContracting by decide)]
  rfl

/-- The product contracted over the first axis of both operands, into the zero table: at cell `(h, l)` the sum over
    the 131072 rows of the two entries' product. -/
theorem gram_apply (A B : FVec Ideal S131072x16 .bf16) (h l : Fin 16) :
    matmul dot_S131072x16_S131072x16_S16x16_0_0_1_1_n_n none A B (constant (F := Ideal) S16x16 .f32 0x00000000#32) (ix2 h l)
      = ∑ j : Fin 131072, A (ix2 j h) * B (ix2 j l) := by
  simp only [matmul]
  rw [Ideal.matmul_constant_zero_apply,
    ← Equiv.sum_comp (contrEquiv1 dot_S131072x16_S131072x16_S16x16_0_0_1_1_n_n 131072 rfl rfl).symm]
  refine Finset.sum_congr rfl fun k _ => ?_
  have hk := contrEquiv1_symm_val dot_S131072x16_S131072x16_S16x16_0_0_1_1_n_n 131072 rfl rfl k
  have el : dot_S131072x16_S131072x16_S16x16_0_0_1_1_n_n.lhsIdx (ix2 h l)
      ((contrEquiv1 dot_S131072x16_S131072x16_S16x16_0_0_1_1_n_n 131072 rfl rfl).symm k) = ix2 k h :=
    funext fun a => Fin.ext (by
      match a with
      | ⟨0, _⟩ => exact (lhs_contracted _ _).trans hk
      | ⟨1, _⟩ => exact lhs_free _ _)
  have er : dot_S131072x16_S131072x16_S16x16_0_0_1_1_n_n.rhsIdx (ix2 h l)
      ((contrEquiv1 dot_S131072x16_S131072x16_S16x16_0_0_1_1_n_n 131072 rfl rfl).symm k) = ix2 k l :=
    funext fun a => Fin.ext (by
      match a with
      | ⟨0, _⟩ => exact (rhs_contracted _ _).trans hk
      | ⟨1, _⟩ => exact rhs_free _ _)
  rw [el, er]

/-! ## The two indicator matrices, entry by entry -/

/-- The column of a tile's words, flattened row by row and repeated along sixteen lanes: entry `(j, h)` is word
    `(j / 128, j % 128)` of the tile. -/
theorem column_apply (w : IVec S1024x128 32) (j : Fin 131072) (h : Fin 16) :
    broadcastTo S131072x16 (shapeCast S131072x1 w shapeCasts_S1024x128_S131072x1) broadcasts_S131072x1_S131072x16 (ix2 j h)
      = w (ix2 (⟨j.val / 128, by have := j.isLt; omega⟩ : Fin 1024) (⟨j.val % 128, Nat.mod_lt _ (by decide)⟩ : Fin 128)) :=
  (broadcastTo_apply _ _ (ix2 j h) (ix2 j (0 : Fin 1)) (fun a => match a with | ⟨0, _⟩ => rfl | ⟨1, _⟩ => rfl)).trans
    (shapeCast_apply w _ (ix2 j (0 : Fin 1)) _ (by
      rw [Shape.rowMajor_val_two, Shape.rowMajor_val_two]
      show j.val / 128 * 128 + j.val % 128 = j.val * 1 + 0
      omega))

/-- The row of the sixteen digits repeated down the 131072 rows: entry `(j, h)` is the word `h`. -/
theorem digits_apply (j : Fin 131072) (h : Fin 16) :
    broadcastTo S131072x16 (iota .tc S1x16 32 [1] iota_S1x16_d1_w32) broadcasts_S1x16_S131072x16 (ix2 j h)
      = BitVec.ofNat 32 h.val :=
  (broadcastTo_apply _ _ (ix2 j h) (ix2 (0 : Fin 1) h) (fun a => match a with | ⟨0, _⟩ => rfl | ⟨1, _⟩ => rfl)).trans
    (iota_single_apply .tc S1x16 32 1 iota_S1x16_d1_w32 (ix2 (0 : Fin 1) h))

/-- An indicator matrix: entry `(j, h)` is `1` when word `j` of the tile is the digit `h`, else `0`. -/
theorem indicator_apply (w : IVec S1024x128 32) (j : Fin 131072) (h : Fin 16) :
    (truncf .bf16 (sitofp (F := Ideal) .f32 (extui 32 (cmpi .eq
        (broadcastTo S131072x16 (shapeCast S131072x1 w shapeCasts_S1024x128_S131072x1) broadcasts_S131072x1_S131072x16)
        (broadcastTo S131072x16 (iota .tc S1x16 32 [1] iota_S1x16_d1_w32) broadcasts_S1x16_S131072x16)) natLt_1_32))
        bitsLt_bf16_f32 : FVec Ideal S131072x16 .bf16) (ix2 j h)
      = oneHot (w (ix2 (⟨j.val / 128, by have := j.isLt; omega⟩ : Fin 1024) (⟨j.val % 128, Nat.mod_lt _ (by decide)⟩ : Fin 128)))
          (BitVec.ofNat 32 h.val) := by
  rw [← column_apply w j h, ← digits_apply j h]
  rfl

/-! ## The words of a tile, element by element -/

/-- The loaded tile without its unit axis. -/
theorem tile_apply (x0 : Vec Ideal S1x1024x128 .f32) (r : Fin 1024) (k : Fin 128) :
    k0_pay4 (F := Ideal) x0 (ix2 r k) = x0 (ix3 (0 : Fin 1) r k) := by
  unfold k0_pay4
  exact shapeCast_1ab_ab_apply x0 _ r k

/-- The range test of a tile, element by element. -/
theorem inRange_apply (x0 : Vec Ideal S1x1024x128 .f32) (r : Fin 1024) (k : Fin 128) :
    k0_pay5 (F := Ideal) x0 (ix2 r k) = inRange (x0 (ix3 (0 : Fin 1) r k)) := by
  rw [← tile_apply x0 r k]
  rfl

/-- The bins of a tile, element by element. -/
theorem binWord_apply (x0 : Vec Ideal S1x1024x128 .f32) (r : Fin 1024) (k : Fin 128) :
    k0_pay6 (F := Ideal) x0 (ix2 r k) = binWord (x0 (ix3 (0 : Fin 1) r k)) := by
  rw [← tile_apply x0 r k]
  rfl

/-- The high digits of a tile (no digit out of range), element by element. -/
theorem hiWord_apply (x0 : Vec Ideal S1x1024x128 .f32) (r : Fin 1024) (k : Fin 128) :
    select (k0_pay5 (F := Ideal) x0)
        (select (andi (k0_pay8 (F := Ideal) x0) (k0_pay9 (F := Ideal) x0))
          (subi (k0_pay7 (F := Ideal) x0) (broadcast S1024x128 1#32)) (k0_pay7 (F := Ideal) x0))
        (broadcast S1024x128 4294967295#32) (ix2 r k)
      = hiWord (x0 (ix3 (0 : Fin 1) r k)) := by
  unfold hiWord
  rw [← inRange_apply x0 r k, ← binWord_apply x0 r k]
  rfl

/-- The low digits of a tile (no digit out of range), element by element. -/
theorem loWord_apply (x0 : Vec Ideal S1x1024x128 .f32) (r : Fin 1024) (k : Fin 128) :
    select (k0_pay5 (F := Ideal) x0)
        (subi (k0_pay6 (F := Ideal) x0)
          (muli (select (andi (k0_pay8 (F := Ideal) x0) (k0_pay9 (F := Ideal) x0))
            (subi (k0_pay7 (F := Ideal) x0) (broadcast S1024x128 1#32)) (k0_pay7 (F := Ideal) x0)) (broadcast S1024x128 16#32)))
        (broadcast S1024x128 4294967295#32) (ix2 r k)
      = loWord (x0 (ix3 (0 : Fin 1) r k)) := by
  unfold loWord
  rw [← inRange_apply x0 r k, ← binWord_apply x0 r k]
  rfl

/-- The table before the first tile: zero everywhere. -/
theorem zero_apply (h l : Fin 16) : k0_pay3 (F := Ideal) (ix2 h l) = 0 := by
  unfold k0_pay3
  rw [shapeCast_self]
  exact Ideal.ofBits_zero_f32

/-- A tile's update at cell `(h, l)`: what the table held plus the tile's count of values whose bin has the digits
    `(h, l)`. -/
theorem update_apply (x0 : Vec Ideal S1x1024x128 .f32) (acc : Vec Ideal S16x16 .f32) (h l : Fin 16) :
    k0_pay1 (F := Ideal) (k0_pay5 x0) (k0_pay6 x0) (k0_pay7 x0) (k0_pay8 x0) (k0_pay9 x0) acc (ix2 h l)
      = acc (ix2 h l) + ∑ j : Fin 131072, hit (x0 (tileIx j)) h l := by
  unfold k0_pay1
  dsimp only
  rw [shapeCast_self]
  refine (congrArg (acc (ix2 h l) + ·) (gram_apply _ _ h l)).trans ?_
  refine congrArg (acc (ix2 h l) + ·) (Finset.sum_congr rfl fun j _ => ?_)
  refine (congrArg₂ (· * ·) (indicator_apply _ j h) (indicator_apply _ j l)).trans ?_
  rw [hiWord_apply, loWord_apply]
  exact oneHot_mul_oneHot (x0 (tileIx j)) h l

/-- The table handed to the result block: the same entries under a leading unit axis. -/
theorem out_apply (v : Vec Ideal S16x16 .f32) (h l : Fin 16) :
    k0_pay2 (F := Ideal) v (ix3 (0 : Fin 1) h l) = v (ix2 h l) := by
  unfold k0_pay2
  exact shapeCast_ab_1ab_apply v _ (0 : Fin 1) h l

end Cert.KernelIdeal.Tile

end
-- ==== Proof.InputTile.lean ====
/-
  The tile a grid point reads, as elements of the flat arguments.

  The two arguments are reshaped to [262144, 128], given a leading unit axis and stacked: array `a` of the stack is
  argument `a`. Point `t` of the 2 × 256 grid reads rows `1024 · (t % 256) … + 1023` of array `t / 256`; its element
  `(r, k)` is therefore element `131072 · (t % 256) + 128 r + k` of that argument in row-major order.
-/
import proofs.«135395_j89893665505443_1_alg».proof.Proof.Gen.KernelIdeal.Frame.Runs
import proofs.«135395_j89893665505443_1_alg».proof.Proof.BinCount
import Idealize.ShloMosaic.Lib.Pipeline.Value
import Idealize.ShloMosaic.Lib.ValueIdx
import Idealize.ShloMosaic.Lib.StableHlo.Run

noncomputable section

namespace Cert.KernelIdeal.InputTile

open Cert.KernelIdeal Cert.KernelIdeal.Gen Cert.Hist Idealize.ShloMosaic Idealize.ShloMosaic.TcCoe Idealize.SL.Sem
open Idealize.ShloMosaic.ValueIdx

variable (m : (ℓ : Loc nD τ sig) → Buf (Elt Ideal) ℓ)

/-- Argument `a` of the stack as the launch found it: the first argument for `a = 0`, the second otherwise. -/
def argOf (c : Dev nD) (a : ℕ) : SArg.Idx → EReal :=
  if a = 0 then m ((c : Thread nD τ).loc main_arg0) else m ((c : Thread nD τ).loc main_arg1)

/-- The tile point `t` reads, at its literal type. -/
abbrev tile (c : Dev nD) (t : Fin cfg0.N) : Vec Ideal S1x1024x128 .f32 := iblk m c 0 t

/-- Where window 0's block sits at each grid point: array `t / 256`, row block `t % 256`. -/
theorem index_facts : ∀ t : Fin cfg0.N,
    win0_0.index t 0 = t.val / 256 ∧ win0_0.index t 1 = t.val % 256 ∧ win0_0.index t 2 = 0 :=
  (by decide +kernel : ∀ t : Fin grid0.N,
    win0_0.index t 0 = t.val / 256 ∧ win0_0.index t 1 = t.val % 256 ∧ win0_0.index t 2 = 0)

/-- The stack of two arrays `x0`, `x1`: each reshaped to [262144, 128], given a leading unit axis, the two
    concatenated along it. -/
abbrev stack (x0 x1 : SArg.Idx → EReal) : S2x262144x128.Idx → EReal :=
  concatenate S2x262144x128 0
    [⟨S1x262144x128, broadcastInDim S1x262144x128 ![1, 2] Facts₀.bcast_S262144x128_S1x262144x128_1_2
        (shapeCast S262144x128 x0 Facts₀.shapeCasts_S64x2x512x512_S262144x128)⟩,
     ⟨S1x262144x128, broadcastInDim S1x262144x128 ![1, 2] Facts₀.bcast_S262144x128_S1x262144x128_1_2
        (shapeCast S262144x128 x1 Facts₀.shapeCasts_S64x2x512x512_S262144x128)⟩]
    Facts₀.concatenates_S1x262144x128_S1x262144x128_S2x262144x128_d0

/-- The stacked array as the region finds it is the stack of the two arguments. -/
theorem V_main_v4 (c : Dev nD) :
    (V m c main_v4 : S2x262144x128.Idx → EReal) =
      stack (m ((c : Thread nD τ).loc main_arg0)) (m ((c : Thread nD τ).loc main_arg1)) := by
  show StableHlo.after hostOps0 (fun b => m (c, b)) (Proc.devRef .tc main_v4) = _
  after_results
  rfl

/-- A reshaped argument at row `R`, lane `k` is the argument's element `128 R + k` in row-major order. -/
theorem reshaped_apply (x : SArg.Idx → EReal) (R : Fin 262144) (k : Fin 128) :
    shapeCast S262144x128 x Facts₀.shapeCasts_S64x2x512x512_S262144x128 (ix2 R k) = flat x (128 * R.val + k.val) := by
  have hn : 128 * R.val + k.val < 33554432 := by have := R.isLt; have := k.isLt; omega
  unfold flat
  rw [dif_pos hn]
  refine (shapeCast_apply x _ (ix2 R k) (Shape.reshapeEquiv argCasts (ix1 ⟨128 * R.val + k.val, hn⟩)) ?_).trans rfl
  rw [Shape.rowMajor_reshapeEquiv, Shape.rowMajor_val_one, Shape.rowMajor_val_two]
  show 128 * R.val + k.val = R.val * 128 + k.val
  omega

/-- The stack at array `a`, row `R`, lane `k`. -/
theorem stack_apply (x0 x1 : SArg.Idx → EReal) (a : Fin 2) (R : Fin 262144) (k : Fin 128) :
    stack x0 x1 (ix3 a R k) = flat (if a.val = 0 then x0 else x1) (128 * R.val + k.val) := by
  have hb : ∀ (x : S262144x128.Idx → EReal),
      broadcastInDim S1x262144x128 ![1, 2] Facts₀.bcast_S262144x128_S1x262144x128_1_2 x (ix3 (0 : Fin 1) R k) = x (ix2 R k) :=
    fun x => broadcastInDim_apply _ _ x (ix3 (0 : Fin 1) R k) (ix2 R k)
      (fun b => match b with | ⟨0, _⟩ => rfl | ⟨1, _⟩ => rfl)
  match a with
  | ⟨0, ha⟩ =>
    rw [if_pos rfl]
    refine (concatenate_pair_apply_left (t := S2x262144x128) (s₁ := S1x262144x128) (s₂ := S1x262144x128) (0 : Fin 3) _ _ _ (ix3 (⟨0, ha⟩ : Fin 2) R k) rfl
      (ix3 (0 : Fin 1) R k) (fun b => match b with | ⟨0, _⟩ => rfl | ⟨1, _⟩ => rfl | ⟨2, _⟩ => rfl)).trans ?_
    rw [hb, reshaped_apply]
  | ⟨1, ha⟩ =>
    rw [if_neg (show ¬ (1 : ℕ) = 0 by decide)]
    refine (concatenate_pair_apply_right (t := S2x262144x128) (s₁ := S1x262144x128) (s₂ := S1x262144x128) (0 : Fin 3) _ _ _ (ix3 (⟨1, ha⟩ : Fin 2) R k) rfl rfl
      (ix3 (0 : Fin 1) R k)
      (fun b hb' => match b, hb' with | ⟨0, _⟩, h => absurd rfl h | ⟨1, _⟩, _ => rfl | ⟨2, _⟩, _ => rfl) rfl).trans ?_
    rw [hb, reshaped_apply]

/-- The tile's element `(0, r, k)` is the stacked array's element at array `t / 256`, row `1024 (t % 256) + r`,
    lane `k`: along each axis a block's element sits at the block's index times the block's extent plus the
    coordinate inside the block. -/
theorem tile_eq_stack (c : Dev nD) (t : Fin cfg0.N) (r : Fin 1024) (k : Fin 128)
    (h0 : t.val / 256 < 2) (h1 : 1024 * (t.val % 256) + r.val < 262144) :
    tile m c t (ix3 (0 : Fin 1) r k)
      = V m c main_v4 (ix3 (⟨t.val / 256, h0⟩ : Fin 2) (⟨1024 * (t.val % 256) + r.val, h1⟩ : Fin 262144) k) := by
  obtain ⟨e0, e1, e2⟩ := index_facts t
  unfold tile iblk
  rw [View.read_apply]
  show V m c main_v4 _ = V m c main_v4 _
  refine congrArg (V m c main_v4) (funext fun a => Fin.ext ?_)
  match a with
  | ⟨0, _⟩ => show win0_0.index t 0 * 1 + 1 * 0 = t.val / 256; rw [e0]; omega
  | ⟨1, _⟩ => show win0_0.index t 1 * 1024 + 1 * r.val = 1024 * (t.val % 256) + r.val; rw [e1]; omega
  | ⟨2, _⟩ => show win0_0.index t 2 * 128 + 1 * k.val = k.val; rw [e2]; omega

/-- Element `(r, k)` of the tile at point `t` is element `131072 (t % 256) + 128 r + k` of argument `t / 256`. -/
theorem tile_apply (c : Dev nD) (t : Fin cfg0.N) (r : Fin 1024) (k : Fin 128) :
    tile m c t (ix3 (0 : Fin 1) r k) = flat (argOf m c (t.val / 256)) (131072 * (t.val % 256) + (128 * r.val + k.val)) := by
  have ht : t.val < 512 := lt_of_lt_of_eq t.isLt N_0
  have hr := r.isLt
  have h0 : t.val / 256 < 2 := by omega
  have h1 : 1024 * (t.val % 256) + r.val < 262144 := by omega
  rw [tile_eq_stack m c t r k h0 h1, V_main_v4, stack_apply]
  unfold argOf
  refine congrArg₂ flat rfl ?_
  show 128 * (1024 * (t.val % 256) + r.val) + k.val = 131072 * (t.val % 256) + (128 * r.val + k.val)
  omega

end Cert.KernelIdeal.InputTile

end
-- ==== Proof.RunningTable.lean ====
/-
  The table the kernel carries, after any point, as a sum of tile counts; and the table a row hands to the result.

  Point `n` of the 2 × 256 grid belongs to row `n / 256`. The table held after it is the zero table updated by the
  tiles of the points `256 (n / 256) … n` in turn, and each update adds, at cell `(h, l)`, the number of the tile's
  values whose bin has the digits `(h, l)`. A tile's values are 131072 consecutive elements of its row's argument,
  so after the row's last point the cell holds the count over all 33554432 elements of that argument.
-/
import proofs.«135395_j89893665505443_1_alg».proof.Proof.CaseValues
import proofs.«135395_j89893665505443_1_alg».proof.Proof.TileUpdate
import proofs.«135395_j89893665505443_1_alg».proof.Proof.InputTile
import Idealize.ShloMosaic.Lib.Pipeline.Value
import Idealize.ShloMosaic.Lib.ValueIdx

noncomputable section

open scoped BigOperators

namespace Cert.KernelIdeal.Table

open Cert.KernelIdeal Cert.KernelIdeal.Gen Cert.Hist Idealize.ShloMosaic Idealize.ShloMosaic.TcCoe Idealize.SL.Sem
open Idealize.ShloMosaic.ValueIdx Cert.KernelIdeal.Pieces Cert.KernelIdeal.Tile Cert.KernelIdeal.InputTile

variable (m : (ℓ : Loc nD τ sig) → Buf (Elt Ideal) ℓ)

/-- The table held after point `n`. -/
abbrev tableAt (c : Dev nD) (n : ℕ) (hn : n < cfg0.N) : Vec Ideal S16x16 .f32 := (outsAt0 m c n hn).2

/-- What point `n` adds at a cell: the count, over the 131072 elements of its tile read off the flat argument of
    its row, of the values whose bin has the cell's digits. -/
def addend (c : Dev nD) (n : ℕ) (i : S16x16.Idx) : EReal :=
  ∑ j : Fin 131072, hit (flat (argOf m c (n / 256)) (131072 * (n % 256) + j.val)) (i 0 : Fin 16) (i 1 : Fin 16)

/-- A point's update at a cell: the table before plus the point's addend. -/
theorem step_apply (c : Dev nD) (t : Fin cfg0.N) (acc : Vec Ideal S16x16 .f32) (i : S16x16.Idx) :
    step (tile m c t) acc i = acc i + addend m c t.val i := by
  obtain ⟨h, l, rfl⟩ : ∃ (h l : Fin 16), i = ix2 h l := ⟨i 0, i 1, eq_ix2 i⟩
  refine (update_apply (tile m c t) acc h l).trans ?_
  refine congrArg (acc (ix2 h l) + ·) ?_
  unfold addend
  refine Finset.sum_congr rfl fun j _ => ?_
  rw [InputTile.tile_apply]
  have e : 128 * (j.val / 128) + j.val % 128 = j.val := Nat.div_add_mod j.val 128
  show hit (flat (argOf m c (t.val / 256)) (131072 * (t.val % 256) + (128 * (j.val / 128) + j.val % 128))) h l = _
  rw [e]

theorem period_pos : 0 < 256 := by decide

/-- The table after point `t` is the sum of the addends of the points of its row up to `t`. -/
theorem tableAt_apply (c : Dev nD) (t : Fin cfg0.N) (i : S16x16.Idx) :
    tableAt m c t.val t.isLt i = ∑ s ∈ Finset.range (t.val % 256 + 1), addend m c (256 * (t.val / 256) + s) i := by
  have hN : cfg0.N = 512 := N_0
  have h' : 256 * (t.val / 256) + t.val % 256 < cfg0.N := by rw [Nat.div_add_mod]; exact t.isLt
  have key := Pipeline.eq_accAt_of_mod (N := cfg0.N) (fun n hn => tableAt m c n hn) 256
    (fun n hn => step (tile m c ⟨n, hn⟩) (k0_pay3 (F := Ideal)))
    (fun n hn acc => step (tile m c ⟨n, hn⟩) acc)
    (fun n hn h0 => by
      show (outsAt0 m c n hn).2 = _
      have h1 : ¬(⟨n, hn⟩ : Fin cfg0.N).val % 256 = 255 := by dsimp only; omega
      rw [outsAt0_A m c ⟨n, hn⟩ h0 h1]
      dsimp only
      exact scratch_A (F := Ideal) c (grid0.coords ⟨n, hn⟩) (ms0_0 ⟨n, hn⟩) (hs0_0 ⟨n, hn⟩) (ms0_1 ⟨n, hn⟩) (hs0_1 ⟨n, hn⟩)
        scM0_0 (Memref.isWhole_whole _) ((hcond0_0 ⟨n, hn⟩).mpr h0) (fun h => h1 ((hcond0_1 ⟨n, hn⟩).mp h)) (iblk m c 0 ⟨n, hn⟩))
    (fun n hn hne => by
      show (outsAt0 m c (n + 1) hn).2 = step (tile m c ⟨n + 1, hn⟩) (outsAt0 m c n (Nat.lt_of_succ_lt hn)).2
      have h0 : ¬(⟨n + 1, hn⟩ : Fin cfg0.N).val % 256 = 0 := hne
      by_cases h1 : (⟨n + 1, hn⟩ : Fin cfg0.N).val % 256 = 255
      · rw [outsAt0_C m c ⟨n + 1, hn⟩ h0 h1]
        dsimp only
        exact scratch_C (F := Ideal) c (grid0.coords ⟨n + 1, hn⟩) (ms0_0 ⟨n + 1, hn⟩) (hs0_0 ⟨n + 1, hn⟩) (ms0_1 ⟨n + 1, hn⟩) (hs0_1 ⟨n + 1, hn⟩)
          scM0_0 (Memref.isWhole_whole _) (fun h => h0 ((hcond0_0 ⟨n + 1, hn⟩).mp h)) ((hcond0_1 ⟨n + 1, hn⟩).mpr h1) (iblk m c 0 ⟨n + 1, hn⟩)
          (outsAt0 m c n (Nat.lt_of_succ_lt hn)).2
      · rw [outsAt0_B m c ⟨n + 1, hn⟩ h0 h1]
        dsimp only
        exact scratch_B (F := Ideal) c (grid0.coords ⟨n + 1, hn⟩) (ms0_0 ⟨n + 1, hn⟩) (hs0_0 ⟨n + 1, hn⟩) (ms0_1 ⟨n + 1, hn⟩) (hs0_1 ⟨n + 1, hn⟩)
          scM0_0 (Memref.isWhole_whole _) (fun h => h0 ((hcond0_0 ⟨n + 1, hn⟩).mp h)) (fun h => h1 ((hcond0_1 ⟨n + 1, hn⟩).mp h)) (iblk m c 0 ⟨n + 1, hn⟩)
          (outsAt0 m c n (Nat.lt_of_succ_lt hn)).2)
    period_pos t.val t.isLt h'
  refine (congrFun key i).trans ?_
  rw [Pipeline.accAt_add_apply (N := cfg0.N) (fun n hn => step (tile m c ⟨n, hn⟩) (k0_pay3 (F := Ideal)))
    (fun n hn acc => step (tile m c ⟨n, hn⟩) acc) (fun _ => (0 : EReal)) (addend m c) (256 * (t.val / 256)) 255
    (fun h i => by
      rw [step_apply m c ⟨_, h⟩ _ i]
      obtain ⟨p, q, rfl⟩ : ∃ (p q : Fin 16), i = ix2 p q := ⟨i 0, i 1, eq_ix2 i⟩
      rw [zero_apply])
    (fun n h acc i _ _ => step_apply m c ⟨n, h⟩ acc i)
    (t.val % 256) (by have := Nat.mod_lt t.val period_pos; omega) h' i]
  exact zero_add _

/-- After the last point of row `a` the cell `(h, l)` holds the count over every element of argument `a`. -/
theorem tableAt_last (c : Dev nD) (t : Fin cfg0.N) (h1 : t.val % 256 = 255) (h l : Fin 16) :
    tableAt m c t.val t.isLt (ix2 h l) = ∑ e : Fin 33554432, hit (flat (argOf m c (t.val / 256)) e.val) h l := by
  rw [tableAt_apply, h1, ← sum_tiles (fun n => hit (flat (argOf m c (t.val / 256)) n) h l)]
  refine Finset.sum_congr rfl fun s hs => ?_
  have hs' : s < 256 := Finset.mem_range.mp hs
  unfold addend
  have e1 : (256 * (t.val / 256) + s) / 256 = t.val / 256 := by omega
  have e2 : (256 * (t.val / 256) + s) % 256 = s := by omega
  rw [e1, e2]

/-- The row's last point hands its table to the result block. -/
theorem outAt_last (c : Dev nD) (t : Fin cfg0.N) (h1 : t.val % 256 = 255) (h l : Fin 16) :
    ((outsAt0 m c t.val t.isLt).1 : Vec Ideal S1x16x16 .f32) (ix3 (0 : Fin 1) h l)
      = ∑ e : Fin 33554432, hit (flat (argOf m c (t.val / 256)) e.val) h l := by
  rw [← tableAt_last m c t h1 h l]
  have h0 : ¬t.val % 256 = 0 := by omega
  show (outsAt0 m c t.val t.isLt).1 (ix3 (0 : Fin 1) h l) = (outsAt0 m c t.val t.isLt).2 (ix2 h l)
  rw [outsAt0_C m c t h0 h1]
  dsimp only
  rw [out_C (F := Ideal) c (grid0.coords t) (ms0_0 t) (hs0_0 t) (ms0_1 t) (hs0_1 t) scM0_0 (Memref.isWhole_whole _)
      (fun h => h0 ((hcond0_0 t).mp h)) ((hcond0_1 t).mpr h1) (iblk m c 0 t) _,
    scratch_C (F := Ideal) c (grid0.coords t) (ms0_0 t) (hs0_0 t) (ms0_1 t) (hs0_1 t) scM0_0 (Memref.isWhole_whole _)
      (fun h => h0 ((hcond0_0 t).mp h)) ((hcond0_1 t).mpr h1) (iblk m c 0 t) _]
  exact out_apply _ h l

end Cert.KernelIdeal.Table

end
-- ==== Proof.ResultArray.lean ====
/-
  The array the kernel region leaves: the table of digit-pair counts of each argument.

  Row `a` of the grid writes its 16 × 16 table back once, after its last point, to block `a` of the [2, 16, 16]
  result; the two blocks are the whole array. So the array ends holding, at `(a, h, l)`, the count over every
  element of argument `a` of the values whose bin has the digits `(h, l)`.
-/
import proofs.«135395_j89893665505443_1_alg».proof.Proof.RunningTable
import Idealize.ShloMosaic.Lib.Pipeline.Value
import Idealize.ShloMosaic.Lib.ValueIdx

noncomputable section

open scoped BigOperators

namespace Cert.KernelIdeal.Result

open Cert.KernelIdeal Cert.KernelIdeal.Gen Cert.Hist Idealize.ShloMosaic Idealize.ShloMosaic.TcCoe Idealize.SL.Sem
open Idealize.ShloMosaic.ValueIdx Cert.KernelIdeal.InputTile Cert.KernelIdeal.Table
open Idealize.ShloMosaic.Pipeline (Dat)

variable (m : (ℓ : Loc nD τ sig) → Buf (Elt Ideal) ℓ)

/-- The counts of both arguments, as the contents of the [2, 16, 16] result. -/
def counts (c : Dev nD) : Vec Ideal S2x16x16 .f32 :=
  fun i => ∑ e : Fin 33554432, hit (flat (argOf m c (i 0).val) e.val) (i 1 : Fin 16) (i 2 : Fin 16)

/-- The counts at explicit coordinates. -/
theorem counts_apply (c : Dev nD) (a : Fin 2) (h l : Fin 16) :
    counts m c (ix3 a h l) = ∑ e : Fin 33554432, hit (flat (argOf m c a.val) e.val) h l := by
  unfold counts
  exact Finset.sum_congr rfl fun e _ => rfl

/-- The result window's block index at point `t`: the row on the first axis, zero on the others. -/
theorem out_index : ∀ t : Fin cfg0.N, win0_1.index t (0 : Fin 3) = t.val / 256 ∧ win0_1.index t (1 : Fin 3) = 0 ∧ win0_1.index t (2 : Fin 3) = 0 :=
  (by decide +kernel : ∀ t : Fin grid0.N, win0_1.index t (0 : Fin 3) = t.val / 256 ∧ win0_1.index t (1 : Fin 3) = 0 ∧ win0_1.index t (2 : Fin 3) = 0)

/-- What a point writes back, against any contents `G` of the result array that agree with it element by element. -/
theorem flushed_of (c : Dev nD) (t : Fin cfg0.N) (G : Vec Ideal S2x16x16 .f32)
    (hG : ∀ y : ((cfg0.win 1).xblock (grid0.coords t)).Idx,
      (cfg0.win 1).cut (grid0.coords t) (outsAt0 m c t.val t.isLt).1 y = G (((cfg0.win 1).blk t).view.emb y)) :
    (dats m 0 c).flushed 1 t = ((cfg0.win 1).blk t).view.read (Elt Ideal) G := by
  show (cfg0.win 1).cut (grid0.coords t) ((dats m 0 c).after 1 t) = _
  rw [after0_1]
  funext y
  exact hG y

/-- What a row's last point writes back is its block of the counts. -/
theorem flushed_eq (c : Dev nD) (t : Fin cfg0.N) (hf : (cfg0.win 1).flush t = true) :
    (dats m 0 c).flushed 1 t = ((cfg0.win 1).blk t).view.read (Elt Ideal) (counts m c) := by
  have h1 : t.val % 256 = 255 := (flush0_1 t).mp hf
  obtain ⟨e0, e1, e2⟩ := out_index t
  refine flushed_of m c t (counts m c) fun y => ?_
  have hy0 : (y 0).val < 1 := (y 0).isLt
  have hy1 : (y 1).val < 16 := (y 1).isLt
  have hy2 : (y 2).val < 16 := (y 2).isLt
  have hN : t.val < 512 := lt_of_lt_of_eq t.isLt (show cfg0.N = 512 from N_0)
  have hrow : t.val / 256 < 2 := by omega
  have hemb : ((cfg0.win 1).blk t).view.emb y = (ix3 (⟨t.val / 256, hrow⟩ : Fin 2) (⟨(y 1).val, hy1⟩ : Fin 16) (⟨(y 2).val, hy2⟩ : Fin 16) : S2x16x16.Idx) := by
    funext a; apply Fin.ext
    match a with
    | ⟨0, _⟩ => show win0_1.index t (0 : Fin 3) * 1 + 1 * (y 0).val = t.val / 256; rw [e0]; omega
    | ⟨1, _⟩ => show win0_1.index t (1 : Fin 3) * 16 + 1 * (y 1).val = (y 1).val; rw [e1]; omega
    | ⟨2, _⟩ => show win0_1.index t (2 : Fin 3) * 16 + 1 * (y 2).val = (y 2).val; rw [e2]; omega
  rw [hemb]
  refine Eq.trans (b := ((outsAt0 m c t.val t.isLt).1 : Vec Ideal S1x16x16 .f32) (ix3 (0 : Fin 1) ⟨(y 1).val, hy1⟩ ⟨(y 2).val, hy2⟩)) ?_ ?_
  · show ((outsAt0 m c t.val t.isLt).1 : Vec Ideal S1x16x16 .f32) _ = (outsAt0 m c t.val t.isLt).1 _
    refine congrArg _ (funext fun a => Fin.ext ?_)
    match a with
    | ⟨0, _⟩ => show (y 0).val = 0; omega
    | ⟨1, _⟩ => rfl
    | ⟨2, _⟩ => rfl
  · rw [outAt_last m c t h1]
    unfold counts
    exact Finset.sum_congr rfl fun e _ => rfl

/-- The two rows' blocks are the whole array. -/
theorem covered (i : S2x16x16.Idx) :
    ∃ t : Fin cfg0.N, (cfg0.win 1).flush t = true ∧ i ∈ ((cfg0.win 1).blk t).view.set := by
  have hi0 : (i 0).val < 2 := (i 0).isLt
  have hi1 : (i 1).val < 16 := (i 1).isLt
  have hi2 : (i 2).val < 16 := (i 2).isLt
  have hN : cfg0.N = 512 := N_0
  obtain ⟨t, ht⟩ : ∃ t : Fin cfg0.N, t.val = 256 * (i 0).val + 255 := ⟨⟨256 * (i 0).val + 255, by rw [hN]; omega⟩, rfl⟩
  refine ⟨t, (flush0_1 t).mpr (by rw [ht]; omega), ?_⟩
  obtain ⟨e0, e1, e2⟩ := out_index t
  show i ∈ ((View.whole main_v5).slice (win0_1.rect t)).set
  rw [View.set_slice_whole, Rect.mem_set_unit]
  intro a
  match a with
  | ⟨0, _⟩ =>
    show win0_1.index t (0 : Fin 3) * 1 ≤ (i 0 : Nat) ∧ (i 0 : Nat) < win0_1.index t (0 : Fin 3) * 1 + 1
    rw [e0, ht]
    omega
  | ⟨1, _⟩ =>
    show win0_1.index t (1 : Fin 3) * 16 ≤ (i 1 : Nat) ∧ (i 1 : Nat) < win0_1.index t (1 : Fin 3) * 16 + 16
    rw [e1]
    omega
  | ⟨2, _⟩ =>
    show win0_1.index t (2 : Fin 3) * 16 ≤ (i 2 : Nat) ∧ (i 2 : Nat) < win0_1.index t (2 : Fin 3) * 16 + 16
    rw [e2]
    omega

/-- So the result array ends holding the counts. -/
theorem final (c : Dev nD) : (dats m 0 c).arrAt 1 cfg0.N = counts m c :=
  (dats m 0 c).arrAt_eq_of_cover 1 (counts m c) (flushed_eq m c) covered

end Cert.KernelIdeal.Result

end
-- ==== Proof.EntropyGap.lean ====
/-
  The closing stretch both programs share: from two 256-bin histograms to one number.

  A histogram `p` becomes the distribution `p / Σ p + ε` and its entropy `-Σ q · log q`; the result is the absolute
  difference of the two entropies. Both programs apply these same operations, in this order and with this `ε`, so the
  stretch is carried as one function of the two histograms and never opened.
-/
import Idealize.ShloMosaic.PureOps.Ideal
import Idealize.ShloMosaic.PureOps.Vector
import Idealize.ShloMosaic.PureOps.Contract
import Idealize.ShloMosaic.PureOps.ShapeOps

noncomputable section

namespace Cert.Hist

open Idealize.ShloMosaic

abbrev SBins : Shape := ⟨1, ![256]⟩
abbrev SOne : Shape := ⟨0, ![]⟩

theorem binsReduce : SBins.ReducesTo [0] SOne := by decide
theorem oneNumel : 0 < SOne.numel := by decide
theorem oneToBins : SOne.BroadcastsInDim SBins (![] : Fin 0 → Fin SBins.rank) := by decide

/-- The entropy of the distribution `p / Σ p + ε`. -/
def entropy (p : SBins.Idx → EReal) : SOne.Idx → EReal :=
  Host.negf (F := Ideal) (φ := .f32)
    (Host.reduceAdd (F := Ideal) (φ := .f32)
      (mulf (F := Ideal) (φ := .f32)
        (addf (F := Ideal) (φ := .f32)
          (Host.divf (F := Ideal) (φ := .f32) p
            (broadcastInDim SBins ![] oneToBins
              (Host.reduceAdd (F := Ideal) (φ := .f32) p (constant (F := Ideal) SOne .f32 0x00000000#32) binsReduce oneNumel)))
          (broadcastInDim SBins ![] oneToBins (constant (F := Ideal) SOne .f32 0x322BCC77#32)))
        (Host.log (F := Ideal) (φ := .f32)
          (addf (F := Ideal) (φ := .f32)
            (Host.divf (F := Ideal) (φ := .f32) p
              (broadcastInDim SBins ![] oneToBins
                (Host.reduceAdd (F := Ideal) (φ := .f32) p (constant (F := Ideal) SOne .f32 0x00000000#32) binsReduce oneNumel)))
            (broadcastInDim SBins ![] oneToBins (constant (F := Ideal) SOne .f32 0x322BCC77#32)))))
      (constant (F := Ideal) SOne .f32 0x00000000#32) binsReduce oneNumel)

/-- The absolute difference of the two entropies. -/
def entropyGap (p q : SBins.Idx → EReal) : SOne.Idx → EReal :=
  Host.absf (F := Ideal) (φ := .f32) (subf (F := Ideal) (φ := .f32) (entropy p) (entropy q))

end Cert.Hist

end
-- ==== Proof.HostTail.lean ====
/-
  From the result array to the program's result: the closing stretch of the kernel's program.

  After the region the program views the [2, 16, 16] table as [2, 256], takes its two rows as 256-vectors and
  applies the closing stretch `entropyGap` to them. Bin `b` of row `a` is the table's cell `(a, b / 16, b % 16)`:
  the views are row-major.
-/
import proofs.«135395_j89893665505443_1_alg».proof.Proof.Gen.KernelIdeal.Frame
import proofs.«135395_j89893665505443_1_alg».proof.Proof.EntropyGap
import Idealize.ShloMosaic.Lib.Pipeline.Value
import Idealize.ShloMosaic.Lib.StableHlo.Run
import Idealize.ShloMosaic.Lib.ValueIdx

noncomputable section

namespace Cert.KernelIdeal.Tail

open Cert.KernelIdeal Cert.KernelIdeal.Gen Cert.Hist Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ)

/-- Row 0 of the table as a 256-vector: the view [2, 256], its first row, flattened. -/
def row0 (T : Vec Ideal S2x16x16 .f32) : SBins.Idx → EReal :=
  shapeCast S256 (extractStridedSlice S1x256 ![0, 0] (shapeCast S2x256 T Facts₀.shapeCasts_S2x16x16_S2x256) Facts₀.slices_S2x256_S1x256_0_0) Facts₀.shapeCasts_S1x256_S256

/-- Row 1 of the table as a 256-vector. -/
def row1 (T : Vec Ideal S2x16x16 .f32) : SBins.Idx → EReal :=
  shapeCast S256 (extractStridedSlice S1x256 ![1, 0] (shapeCast S2x256 T Facts₀.shapeCasts_S2x16x16_S2x256) Facts₀.slices_S2x256_S1x256_1_0) Facts₀.shapeCasts_S1x256_S256

/-- Bin `b` of row 0 is the cell `(0, b / 16, b % 16)`. -/
theorem row0_apply (T : Vec Ideal S2x16x16 .f32) (b : Fin 256) :
    row0 T (ix1 b) = T (ix3 (0 : Fin 2) (⟨b.val / 16, by have := b.isLt; omega⟩ : Fin 16) (⟨b.val % 16, Nat.mod_lt _ (by decide)⟩ : Fin 16)) := by
  have hb := b.isLt
  unfold row0
  rw [shapeCast_apply _ _ (ix1 b) (ix2 (0 : Fin 1) b) (by rewrite [Shape.rowMajor_val_two, Shape.rowMajor_val_one]; show 0 * 256 + b.val = b.val; omega)]
  rw [extractStridedSlice_apply _ _ _ (ix2 (0 : Fin 1) b) (ix2 (0 : Fin 2) b) (fun a => by
    match a with
    | ⟨0, _⟩ => rfl
    | ⟨1, _⟩ => show b.val = 0 + b.val; omega)]
  exact shapeCast_apply _ _ (ix2 (0 : Fin 2) b) _ (by
    rewrite [Shape.rowMajor_val_three, Shape.rowMajor_val_two]
    show (0 * 16 + b.val / 16) * 16 + b.val % 16 = 0 * 256 + b.val
    omega)

/-- Bin `b` of row 1 is the cell `(1, b / 16, b % 16)`. -/
theorem row1_apply (T : Vec Ideal S2x16x16 .f32) (b : Fin 256) :
    row1 T (ix1 b) = T (ix3 (1 : Fin 2) (⟨b.val / 16, by have := b.isLt; omega⟩ : Fin 16) (⟨b.val % 16, Nat.mod_lt _ (by decide)⟩ : Fin 16)) := by
  have hb := b.isLt
  unfold row1
  rw [shapeCast_apply _ _ (ix1 b) (ix2 (0 : Fin 1) b) (by rewrite [Shape.rowMajor_val_two, Shape.rowMajor_val_one]; show 0 * 256 + b.val = b.val; omega)]
  rw [extractStridedSlice_apply _ _ _ (ix2 (0 : Fin 1) b) (ix2 (1 : Fin 2) b) (fun a => by
    match a with
    | ⟨0, _⟩ => rfl
    | ⟨1, _⟩ => show b.val = 0 + b.val; omega)]
  exact shapeCast_apply _ _ (ix2 (1 : Fin 2) b) _ (by
    rewrite [Shape.rowMajor_val_three, Shape.rowMajor_val_two]
    show (1 * 16 + b.val / 16) * 16 + b.val % 16 = 1 * 256 + b.val
    omega)

set_option maxHeartbeats 4000000 in
/-- The lines after the region, from any contents of the buffers: the closing stretch of the two rows of the
    result array. -/
theorem tail_of (c : Dev nD) (W : Valuation τ sig (Elt Ideal)) :
    (StableHlo.after (hostOps1 (F := Ideal)) W (Proc.devRef .tc main_v30) : SOne.Idx → EReal)
      = entropyGap (row0 (W (Proc.devRef .tc main_v5))) (row1 (W (Proc.devRef .tc main_v5))) := by
  after_results_simp
  unfold entropyGap entropy row0 row1
  rfl

/-- So the program's result, from the region's exit contents, is the closing stretch of the rows of the array
    the region left. -/
theorem tail_eq (c : Dev nD) :
    (Pipeline.afterTail₀ cfgs (dats m) 0 (V0 m) [hostOps1] c main_v30 : SOne.Idx → EReal)
      = entropyGap (row0 ((dats m 0 c).arrAt 1 cfg0.N)) (row1 ((dats m 0 c).arrAt 1 cfg0.N)) := by
  unfold Pipeline.afterTail₀
  simp only [List.flatten_cons, List.flatten_nil, List.append_nil]
  rw [tail_of c]
  have e : (Pipeline.withArrays (cfgs 0).spec c (V0 m c) (fun w => (dats m 0 c).arrAt w (cfgs 0).N) (Proc.devRef .tc main_v5) : Vec Ideal S2x16x16 .f32)
      = (dats m 0 c).arrAt 1 cfg0.N :=
    Pipeline.withArrays_arr spec0 launch0.win.arr_inj c (V0 m c) (fun w => (dats m 0 c).arrAt w cfg0.N) 1
  rw [e]

end Cert.KernelIdeal.Tail

end
-- ==== Proof.LibIndexOps.lean ====
import Idealize.ShloMosaic.PureOps.Ideal
import Idealize.ShloMosaic.Lib.ValueIdx
import Idealize.ShloMosaic.Lib.StableHlo.Predicate

/-!
Row gathers and accumulating scatters read at an index.

`x[idx]` on a matrix gathers whole rows: row `e` of the result is the operand's row at the start index word of
position `e`, read signed and clamped into the row range. An accumulating scatter of rows (or of scalars) by an index
vector adds, at each operand element, every update whose index word, read signed, is that element's row; an update
whose word is outside the row range is dropped. At the extended reals the accumulation is the exact sum.
-/

noncomputable section

namespace Idealize.ShloMosaic.IndexOps

open Idealize.ShloMosaic Idealize.ShloMosaic.ValueIdx

/-- An element of a one-element list, at any valid position, is that element. -/
private theorem getElem_of_eq_singleton {β : Type} (l : List β) (a : β) (hl : l = [a]) (i : Nat) (h : i < l.length) :
    l[i] = a := by
  subst hl
  have h0 : i = 0 := by simpa using h
  subst h0
  rfl

/-- A row gather read at `(e, k)`: the operand's row at position `e`'s start index, read signed and clamped into
    `[0, N − 1]`, at column `k`. -/
theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (e : Fin n) (k : Fin C) :
    Host.gather d x idx (ix2 e k) = x (ix2 ⟨min (idx (ix2 e 0)).toInt.toNat (N - 1), by omega⟩ k) := by
  unfold Host.gather
  congr 1
  funext a
  have hb : ∀ a : Fin 2, a ∉ d.operandBatchingDims := by intro a; rw [hob]; exact List.not_mem_nil
  match a with
  | ⟨0, _⟩ =>
    -- the row axis: collapsed and start-indexed, so the coordinate is the clamped start alone
    apply Fin.ext
    show d.start (ix2 e k) idx 0 + d.batchCoord (ix2 e k) 0 + d.offCoord (ix2 e k) 0 = min (idx (ix2 e 0)).toInt.toNat (N - 1)
    have hk : (0 : Fin 2) ∉ d.sKept := by rw [GatherDims.mem_sKept, hcoll]; simp
    have hm : (0 : Fin 2) ∈ d.startIndexMap := by rw [hsim]; exact List.mem_singleton.mpr rfl
    rw [d.batchCoord_eq_zero _ _ (hb 0), d.offCoord_eq_zero _ _ hk]
    simp only [Nat.add_zero]
    unfold GatherDims.start
    rw [dif_pos hm]
    have hsl : d.sliceSizes 0 = 1 := by rw [hss]; rfl
    have hbd : d.batchDims = [0] := by
      show (⟨2, ![n, C]⟩ : Shape).kept d.offsetDims = [0]
      rw [hoff]; rfl
    have hsi : d.siIdx (ix2 e k) ⟨d.startIndexMap.idxOf 0, List.idxOf_lt_length_iff.2 hm⟩ = ix2 e 0 := by
      funext b
      match b with
      | ⟨0, _⟩ =>
        -- the result's one batch axis is axis 0, and it reads the start indices' axis 0
        unfold GatherDims.siIdx
        rw [dif_neg (by rw [hivd]; simp)]
        unfold GatherDims.siCoord
        apply Fin.ext
        simp only [Fin.val_cast]
        have key : ∀ X : Fin 2, X = 0 → ((ix2 e k : (⟨2, ![n, C]⟩ : Shape).Idx) X).val = e.val := by
          intro X hX; subst hX; rfl
        exact key _ (getElem_of_eq_singleton _ _ hbd _ _)
      | ⟨1, _⟩ =>
        unfold GatherDims.siIdx
        rw [dif_pos (by rw [hivd])]
        apply Fin.ext
        show List.idxOf (0 : Fin 2) d.startIndexMap = 0
        rw [hsim]; simp
    rw [hsi, hsl]
    rfl
  | ⟨1, _⟩ =>
    -- the column axis: kept whole, so the coordinate is the result's coordinate on its one offset axis
    apply Fin.ext
    show d.start (ix2 e k) idx 1 + d.batchCoord (ix2 e k) 1 + d.offCoord (ix2 e k) 1 = k.val
    have hm : (1 : Fin 2) ∉ d.startIndexMap := by rw [hsim]; simp
    have hk : (1 : Fin 2) ∈ d.sKept := by rw [GatherDims.mem_sKept, hcoll, hob]; simp
    rw [d.batchCoord_eq_zero _ _ (hb 1)]
    unfold GatherDims.start
    rw [dif_neg hm]
    unfold GatherDims.offCoord
    rw [dif_pos hk]
    simp only [Nat.add_zero, Nat.zero_add]
    have key : ∀ X : Fin 2, X = 1 → ((ix2 e k : (⟨2, ![n, C]⟩ : Shape).Idx) X).val = k.val := by
      intro X hX; subst hX; rfl
    exact key _ (getElem_of_eq_singleton _ _ hoff _ _)

/-- A gather of scalars out of a vector read at `e` (the library's `Predicate.gather_take`, at `ix1` / `ix2`). -/
theorem gather_vec_apply {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1) (hN : 0 < N)
    (x : (⟨1, ![N]⟩ : Shape).Idx → α) (idx : IVec ⟨2, ![n, 1]⟩ w) (e : Fin n) :
    Host.gather d x idx (ix1 e) = x (ix1 ⟨min (idx (ix2 e 0)).toInt.toNat (N - 1), by omega⟩) := by
  have h1 : ∀ {m : Nat} (p : Fin m), (ix1 p : (⟨1, ![m]⟩ : Shape).Idx) = Shape.Idx.ofFin p := by
    intro m p; funext a
    obtain rfl : a = 0 := Subsingleton.elim _ _
    exact Fin.ext rfl
  have h2 : (ix2 e (0 : Fin 1) : (⟨2, ![n, 1]⟩ : Shape).Idx) = StableHlo.Predicate.ixP e := by
    funext a
    match a with
    | ⟨0, _⟩ => rfl
    | ⟨1, _⟩ => rfl
  rw [h1, h1]
  refine (StableHlo.Predicate.gather_take d hcoll hob hsim hivd x idx e hN).trans
    (congrArg x (congrArg Shape.Idx.ofFin (Fin.ext ?_)))
  show min (idx (StableHlo.Predicate.ixP e)).toInt.toNat (N - 1) = min (idx (ix2 e 0)).toInt.toNat (N - 1)
  rw [h2]

section Rows
variable {N C n w : Nat} (d : ScatterDims ⟨2, ![N, C]⟩ ⟨2, ![n, 1]⟩ ⟨2, ![n, C]⟩)

/-- With one index component per position, update `(e, k')` reads its start index at `(e, 0)`. -/
private theorem rows_siIdx (huw : d.updateWindowDims = [1]) (hivd : d.indexVectorDim = 1)
    (e : Fin n) (k' : Fin C) (c : Fin d.scatterDimsToOperandDims.length) (hc : c.val = 0) :
    d.siIdx (ix2 e k') c = ix2 e 0 := by
  have hus : d.uScatter = [0] := by
    show (⟨2, ![n, C]⟩ : Shape).kept d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    have key : ∀ X : Fin 2, X = 0 → ((ix2 e k' : (⟨2, ![n, C]⟩ : Shape).Idx) X).val = e.val := by
      intro X hX; subst hX; rfl
    exact key _ (getElem_of_eq_singleton _ _ hus _ _)
  | ⟨1, _⟩ =>
    unfold ScatterDims.siIdx
    rw [dif_pos (by rw [hivd])]
    apply Fin.ext
    exact hc

/-- The start on the row axis is position `e`'s index word read signed. -/
private theorem rows_start0 (huw : d.updateWindowDims = [1]) (hsd : d.scatterDimsToOperandDims = [0])
    (hivd : d.indexVectorDim = 1) (idx : IVec ⟨2, ![n, 1]⟩ w) (e : Fin n) (k' : Fin C) :
    d.start (ix2 e k') idx 0 = (idx (ix2 e 0)).toInt := by
  have hm : (0 : Fin 2) ∈ d.scatterDimsToOperandDims := by rw [hsd]; exact List.mem_singleton.mpr rfl
  unfold ScatterDims.start
  rw [dif_pos hm, rows_siIdx d huw hivd e k' _ (by show List.idxOf (0 : Fin 2) d.scatterDimsToOperandDims = 0; rw [hsd]; simp)]

/-- The start on the column axis, which the map does not name, is zero. -/
private theorem rows_start1 (hsd : d.scatterDimsToOperandDims = [0]) (idx : IVec ⟨2, ![n, 1]⟩ w)
    (j : (⟨2, ![n, C]⟩ : Shape).Idx) : d.start j idx 1 = 0 := by
  unfold ScatterDims.start
  rw [dif_neg (by rw [hsd]; simp)]

/-- The window coordinate on the inserted row axis is zero. -/
private theorem rows_window0 (hiw : d.insertedWindowDims = [0]) (j : (⟨2, ![n, C]⟩ : Shape).Idx) : d.window j 0 = 0 := by
  unfold ScatterDims.window
  rw [dif_neg (by simp [ScatterDims.sKept, Shape.kept, hiw])]

/-- The window coordinate on the column axis is the update's column. -/
private theorem rows_window1 (huw : d.updateWindowDims = [1]) (hiw : d.insertedWindowDims = [0]) (e : Fin n) (k' : Fin C) :
    d.window (ix2 e k') 1 = k'.val := by
  unfold ScatterDims.window
  rw [dif_pos (by simp [ScatterDims.sKept, Shape.kept, hiw, List.mem_filter, List.mem_finRange])]
  have key : ∀ X : Fin 2, X = 1 → ((ix2 e k' : (⟨2, ![n, C]⟩ : Shape).Idx) X).val = k'.val := by
    intro X hX; subst hX; rfl
  exact key _ (getElem_of_eq_singleton _ _ huw _ _)

/-- Update `(e, k')` lands at `(i, k)` exactly when position `e`'s index word read signed is `i` and the columns
    agree; a word outside `[0, N)` lands nowhere. -/
private theorem rows_resultIdx_iff (huw : d.updateWindowDims = [1]) (hiw : d.insertedWindowDims = [0])
    (hsd : d.scatterDimsToOperandDims = [0]) (hivd : d.indexVectorDim = 1) (idx : IVec ⟨2, ![n, 1]⟩ w)
    (e : Fin n) (k' : Fin C) (i : Fin N) (k : Fin C) :
    d.resultIdx? (ix2 e k') idx = some (ix2 i k) ↔ (idx (ix2 e 0)).toInt = (i.val : ℤ) ∧ k' = k := by
  have hs0 := rows_start0 d huw hsd hivd idx e k'
  have hs1 := rows_start1 d hsd idx (ix2 e k')
  have hw0 := rows_window0 d hiw (ix2 e k')
  have hw1 := rows_window1 d huw hiw e k'
  have hi := i.isLt
  have hk' := k'.isLt
  constructor
  · intro h
    unfold ScatterDims.resultIdx? at h
    split at h
    · next hr =>
      have hf := Option.some.inj h
      have h0 := congrArg Fin.val (congrFun hf 0)
      have h1 := congrArg Fin.val (congrFun hf 1)
      have hr0 := (hr 0).1
      change (d.start (ix2 e k') idx 0 + (d.window (ix2 e k') 0 : ℤ)).toNat = i.val at h0
      change (d.start (ix2 e k') idx 1 + (d.window (ix2 e k') 1 : ℤ)).toNat = k.val at h1
      rw [hs0, hw0] at h0 hr0
      rw [hs1, hw1] at h1
      refine ⟨by omega, Fin.ext (by omega)⟩
    · exact absurd h (by simp)
  · rintro ⟨hi', rfl⟩
    have hr : ∀ a, 0 ≤ d.start (ix2 e k') idx a + d.window (ix2 e k') a ∧
        d.start (ix2 e k') idx a + d.window (ix2 e k') a < (⟨2, ![N, C]⟩ : Shape).size a := by
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hs0, hw0, hi']; omega
      | ⟨1, _⟩ =>
        show 0 ≤ d.start (ix2 e k') idx 1 + (d.window (ix2 e k') 1 : ℤ) ∧ d.start (ix2 e k') idx 1 + (d.window (ix2 e k') 1 : ℤ) < (C : ℤ)
        rw [hs1, hw1]; omega
    unfold ScatterDims.resultIdx?
    rw [dif_pos hr]
    congr 1
    funext a
    match a with
    | ⟨0, _⟩ =>
      apply Fin.ext
      show (d.start (ix2 e k') idx 0 + (d.window (ix2 e k') 0 : ℤ)).toNat = i.val
      rw [hs0, hw0, hi']; omega
    | ⟨1, _⟩ =>
      apply Fin.ext
      show (d.start (ix2 e k') idx 1 + (d.window (ix2 e k') 1 : ℤ)).toNat = k'.val
      rw [hs1, hw1]; omega

end Rows

section Vec
variable {N n w : Nat} (d : ScatterDims ⟨1, ![N]⟩ ⟨2, ![n, 1]⟩ ⟨1, ![n]⟩)

/-- With one index component per position, update `e` reads its start index at `(e, 0)`. -/
private theorem vec_siIdx (hivd : d.indexVectorDim = 1) (e : Fin n) (c : Fin d.scatterDimsToOperandDims.length)
    (hc : c.val = 0) : d.siIdx (ix1 e) c = ix2 e 0 := by
  funext b
  match b with
  | ⟨0, _⟩ =>
    unfold ScatterDims.siIdx
    rw [dif_neg (by rw [hivd]; simp)]
    unfold ScatterDims.siCoord
    apply Fin.ext
    simp only [Fin.val_cast]
    have key : ∀ X : Fin 1, ((ix1 e : (⟨1, ![n]⟩ : Shape).Idx) X).val = e.val := by
      intro X
      obtain rfl : X = 0 := Subsingleton.elim _ _
      rfl
    exact key _
  | ⟨1, _⟩ =>
    unfold ScatterDims.siIdx
    rw [dif_pos (by rw [hivd])]
    apply Fin.ext
    exact hc

/-- The start on the vector's axis is position `e`'s index word read signed. -/
private theorem vec_start0 (hsd : d.scatterDimsToOperandDims = [0]) (hivd : d.indexVectorDim = 1)
    (idx : IVec ⟨2, ![n, 1]⟩ w) (e : Fin n) : d.start (ix1 e) idx 0 = (idx (ix2 e 0)).toInt := by
  have hm : (0 : Fin 1) ∈ d.scatterDimsToOperandDims := by rw [hsd]; exact List.mem_singleton.mpr rfl
  unfold ScatterDims.start
  rw [dif_pos hm, vec_siIdx d hivd e _ (by show List.idxOf (0 : Fin 1) d.scatterDimsToOperandDims = 0; rw [hsd]; simp)]

/-- The window coordinate on the inserted axis is zero. -/
private theorem vec_window0 (hiw : d.insertedWindowDims = [0]) (j : (⟨1, ![n]⟩ : Shape).Idx) : d.window j 0 = 0 := by
  unfold ScatterDims.window
  rw [dif_neg (by simp [ScatterDims.sKept, Shape.kept, hiw])]

/-- Update `e` lands at `i` exactly when its index word read signed is `i`; a word outside `[0, N)` lands nowhere. -/
private theorem vec_resultIdx_iff (hiw : d.insertedWindowDims = [0]) (hsd : d.scatterDimsToOperandDims = [0])
    (hivd : d.indexVectorDim = 1) (idx : IVec ⟨2, ![n, 1]⟩ w) (e : Fin n) (i : Fin N) :
    d.resultIdx? (ix1 e) idx = some (ix1 i) ↔ (idx (ix2 e 0)).toInt = (i.val : ℤ) := by
  have hs0 := vec_start0 d hsd hivd idx e
  have hw0 := vec_window0 d hiw (ix1 e)
  have hi := i.isLt
  constructor
  · intro h
    unfold ScatterDims.resultIdx? at h
    split at h
    · next hr =>
      have hf := Option.some.inj h
      have h0 := congrArg Fin.val (congrFun hf 0)
      have hr0 := (hr 0).1
      change (d.start (ix1 e) idx 0 + (d.window (ix1 e) 0 : ℤ)).toNat = i.val at h0
      rw [hs0, hw0] at h0 hr0
      omega
    · exact absurd h (by simp)
  · intro hi'
    have hr : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      show 0 ≤ d.start (ix1 e) idx 0 + (d.window (ix1 e) 0 : ℤ) ∧ d.start (ix1 e) idx 0 + (d.window (ix1 e) 0 : ℤ) < (N : ℤ)
      rw [hs0, hw0, hi']; omega
    unfold ScatterDims.resultIdx?
    rw [dif_pos hr]
    congr 1
    funext a
    obtain rfl : a = 0 := Subsingleton.elim _ _
    apply Fin.ext
    show (d.start (ix1 e) idx 0 + (d.window (ix1 e) 0 : ℤ)).toNat = i.val
    rw [hs0, hw0, hi']; omega

end Vec

open Classical in
/-- An accumulating scatter of rows read at `(i, k)`: the operand's element plus the sum, over the positions whose index
    word read signed is `i`, of the update's element at column `k`. -/
theorem scatterAdd_rows_apply {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (i : Fin N) (k : Fin C) :
    Ideal.hostScatterAdd d x idx upd (ix2 i k)
      = x (ix2 i k) + ∑ e ∈ Finset.univ.filter (fun e : Fin n => (idx (ix2 e 0)).toInt = (i.val : ℤ)), upd (ix2 e k) := by
  unfold Ideal.hostScatterAdd
  congr 1
  symm
  -- position `e` ↦ update `(e, k)` is a bijection from the positions whose word is `i` onto the updates landing at `(i, k)`
  refine Finset.sum_bij (fun e _ => ix2 e k) ?_ ?_ ?_ ?_
  · intro e he
    rw [Finset.mem_filter] at he ⊢
    exact ⟨Finset.mem_univ _, (rows_resultIdx_iff d huw hiw hsd hivd idx e k i k).2 ⟨he.2, rfl⟩⟩
  · intro e _ e' _ h
    exact congrFun h 0
  · intro j hj
    rw [Finset.mem_filter] at hj
    obtain ⟨e, k', rfl⟩ : ∃ e k', j = ix2 e k' := ⟨j 0, j 1, eq_ix2 j⟩
    obtain ⟨he, rfl⟩ := (rows_resultIdx_iff d huw hiw hsd hivd idx e k' i k).1 hj.2
    exact ⟨e, Finset.mem_filter.2 ⟨Finset.mem_univ _, he⟩, rfl⟩
  · intro e _
    rfl

open Classical in
/-- An accumulating scatter of scalars into a vector read at `i`. -/
theorem scatterAdd_vec_apply {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![n, 1]⟩ w) (upd : (⟨1, ![n]⟩ : Shape).Idx → EReal)
    (i : Fin N) :
    Ideal.hostScatterAdd d x idx upd (ix1 i)
      = x (ix1 i) + ∑ e ∈ Finset.univ.filter (fun e : Fin n => (idx (ix2 e 0)).toInt = (i.val : ℤ)), upd (ix1 e) := by
  unfold Ideal.hostScatterAdd
  congr 1
  symm
  -- position `e` ↦ update `e` is a bijection from the positions whose word is `i` onto the updates landing at `i`
  refine Finset.sum_bij (fun e _ => ix1 e) ?_ ?_ ?_ ?_
  · intro e he
    rw [Finset.mem_filter] at he ⊢
    exact ⟨Finset.mem_univ _, (vec_resultIdx_iff d hiw hsd hivd idx e i).2 he.2⟩
  · intro e _ e' _ h
    exact congrFun h 0
  · intro j hj
    rw [Finset.mem_filter] at hj
    obtain ⟨e, rfl⟩ : ∃ e, j = ix1 e := ⟨j 0, eq_ix1 j⟩
    exact ⟨e, Finset.mem_filter.2 ⟨Finset.mem_univ _, (vec_resultIdx_iff d hiw hsd hivd idx e i).1 hj.2⟩, rfl⟩
  · intro e _
    rfl

end Idealize.ShloMosaic.IndexOps

end
-- ==== Proof.RefHistogram.lean ====
/-
  The reference's histogram, bin by bin.

  Each argument is flattened; element `e` gets the bin word `binWord` and the weight `weight` (1 in range, 0 out of
  it); the weights are added into a zero 256-vector at their bins. Bin `b` therefore holds the sum of the weights of
  the elements whose bin word, read signed, is `b`. The rest of the program is the closing stretch `entropyGap` of
  the two histograms.
-/
import proofs.«135395_j89893665505443_1_alg».proof.Proof.Gen.ReferenceIdeal.Run
import proofs.«135395_j89893665505443_1_alg».proof.Proof.Gen.ReferenceIdeal.Read
import proofs.«135395_j89893665505443_1_alg».proof.Proof.BinCount
import proofs.«135395_j89893665505443_1_alg».proof.Proof.EntropyGap
import proofs.«135395_j89893665505443_1_alg».proof.Proof.LibIndexOps

noncomputable section

open scoped BigOperators

namespace Cert.ReferenceIdeal.RefValue

open Cert.ReferenceIdeal Cert.ReferenceIdeal.Gen Cert.Hist Idealize.ShloMosaic Idealize.ShloMosaic.TcCoe Idealize.SL.Sem
open Idealize.ShloMosaic.ValueIdx

/-- The clipped bin words of an argument, as the one-column index array the scatter reads. -/
def refBins (x : SArg.Idx → EReal) : IVec S33554432x1 32 :=
  broadcastInDim S33554432x1 ![0] bcast_S33554432_S33554432x1_0
    (minsi (broadcastInDim S33554432 ![] bcast_S_S33554432 (id (constantI S_ 32 255#32)))
      (maxsi (broadcastInDim S33554432 ![] bcast_S_S33554432 (id (constantI S_ 32 0#32)))
        (fptosi (F := Ideal) (φ := .f32) 32
          (Host.floor (F := Ideal) (φ := .f32)
            (Host.divf (F := Ideal) (φ := .f32)
              (subf (F := Ideal) (φ := .f32)
                (shapeCast S33554432 x shapeCasts_S64x2x512x512_S33554432)
                (broadcastInDim S33554432 ![] bcast_S_S33554432 (constant (F := Ideal) S_ .f32 0xBF800000#32)))
              (broadcastInDim S33554432 ![] bcast_S_S33554432 (constant (F := Ideal) S_ .f32 0x3C000000#32)))))))

/-- The 0/1 weights of an argument's elements: the range test, converted. -/
def refWeights (x : SArg.Idx → EReal) : S33554432.Idx → EReal :=
  uitofp (F := Ideal) .f32
    (andi
      (cmpf (F := Ideal) (φ := .f32) .oge (shapeCast S33554432 x shapeCasts_S64x2x512x512_S33554432)
        (broadcastInDim S33554432 ![] bcast_S_S33554432 (constant (F := Ideal) S_ .f32 0xBF800000#32)))
      (cmpf (F := Ideal) (φ := .f32) .ole (shapeCast S33554432 x shapeCasts_S64x2x512x512_S33554432)
        (broadcastInDim S33554432 ![] bcast_S_S33554432 (constant (F := Ideal) S_ .f32 0x3F800000#32))))

/-- One argument's histogram: its in-range weights added at its clipped bins into a zero vector. -/
def refHist (x : SArg.Idx → EReal) : SBins.Idx → EReal :=
  Host.scatterAdd (F := Ideal) (φ := .f32) scatter_S256_S33554432x1_S33554432_n_0_0_1
    (broadcastInDim S256 ![] bcast_S_S256 (constant (F := Ideal) S_ .f32 0x00000000#32))
    (refBins x) (refWeights x)

set_option maxRecDepth 8192 in
/-- The program's result is the closing stretch of the two arguments' histograms. -/
theorem result_eq (m : (ℓ : Loc nD τ sig) → Buf (Elt Ideal) ℓ) (c : Dev nD) :
    Value.res_out0 (F := Ideal) m c
      = entropyGap (refHist (m ((c.tc : Thread nD τ).loc main_arg0))) (refHist (m ((c.tc : Thread nD τ).loc main_arg1))) := by
  show Value.res_main_v53 (F := Ideal) m c = _
  unfold Value.res_main_v53 entropyGap entropy refHist refBins refWeights
  rfl

/-- Element `e` of the flattened argument is the flat view's. -/
theorem flat_eq (x : SArg.Idx → EReal) (e : Fin 33554432) :
    flat x e.val = shapeCast S33554432 x shapeCasts_S64x2x512x512_S33554432 (ix1 e) := by
  unfold flat
  rw [dif_pos e.isLt]

/-- The index word at row `e` is the bin word of element `e`. -/
theorem refBins_apply (x : SArg.Idx → EReal) (e : Fin 33554432) :
    refBins x (ix2 e 0) = binWord (flat x e.val) := by
  rw [flat_eq x e]
  unfold refBins
  rw [broadcastInDim_apply _ bcast_S33554432_S33554432x1_0 _ (ix2 e (0 : Fin 1)) (ix1 e) (fun a => match a with
    | ⟨0, _⟩ => by show e.val = if (33554432 : Nat) = 1 then 0 else e.val; rw [if_neg (by decide)])]
  rfl

/-- The update at `e` is the weight of element `e`. -/
theorem refWeights_apply (x : SArg.Idx → EReal) (e : Fin 33554432) :
    refWeights x (ix1 e) = weight (flat x e.val) := by
  rw [flat_eq x e]
  rfl

/-- The histogram is the accumulating scatter of the weights at the bin words into the zero vector. -/
theorem refHist_eq (x : SArg.Idx → EReal) :
    refHist x = Ideal.hostScatterAdd scatter_S256_S33554432x1_S33554432_n_0_0_1
      (broadcastInDim S256 ![] bcast_S_S256 (constant (F := Ideal) S_ .f32 0x00000000#32)) (refBins x) (refWeights x) :=
  Ideal.hostScatterAdd_def scatter_S256_S33554432x1_S33554432_n_0_0_1 .single
    (broadcastInDim S256 ![] bcast_S_S256 (constant (F := Ideal) S_ .f32 0x00000000#32)) (refBins x) (refWeights x)

/-- The scatter's dimension numbers, field by field. -/
theorem scatter_uw : (scatter_S256_S33554432x1_S33554432_n_0_0_1).updateWindowDims = [] := rfl
theorem scatter_iw : (scatter_S256_S33554432x1_S33554432_n_0_0_1).insertedWindowDims = [0] := rfl
theorem scatter_sd : (scatter_S256_S33554432x1_S33554432_n_0_0_1).scatterDimsToOperandDims = [0] := rfl
theorem scatter_iv : (scatter_S256_S33554432x1_S33554432_n_0_0_1).indexVectorDim = 1 := rfl

/-- Every entry of the vector scattered into is zero. -/
theorem zeros_apply (b : Fin 256) :
    (broadcastInDim S256 ![] bcast_S_S256 (constant (F := Ideal) S_ .f32 0x00000000#32) : S256.Idx → EReal) (ix1 b) = 0 :=
  Ideal.ofBits_zero_f32

/-- Bin `b` holds the weights of the elements whose bin word is `b`. -/
theorem refHist_apply (x : SArg.Idx → EReal) (b : Fin 256) :
    refHist x (ix1 b)
      = ∑ e ∈ Finset.univ.filter (fun e : Fin 33554432 => (binWord (flat x e.val)).toInt = (b.val : ℤ)), weight (flat x e.val) := by
  refine (congrFun (refHist_eq x) (ix1 b)).trans ?_
  refine (IndexOps.scatterAdd_vec_apply (N := 256) (n := 33554432) (w := 32) scatter_S256_S33554432x1_S33554432_n_0_0_1
    scatter_uw scatter_iw scatter_sd scatter_iv
    (broadcastInDim S256 ![] bcast_S_S256 (constant (F := Ideal) S_ .f32 0x00000000#32))
    (refBins x) (refWeights x) b).trans ?_
  refine (congrArg (fun t => t + _) (zeros_apply b)).trans ?_
  refine (zero_add _).trans ?_
  exact Finset.sum_congr (Finset.filter_congr fun e _ => by rw [refBins_apply x e]) (fun e _ => refWeights_apply x e)

end Cert.ReferenceIdeal.RefValue

end
-- ==== Proof.lean ====
/-
  The certificate: a 256-bin histogram entropy gap, computed two ways.

  Both programs bin each of the 33554432 values of an argument by `⌊(x + 1) · 128⌋` clipped into `[0, 255]`, count
  only the values in `[-1, 1]`, and end with the same closing stretch on the two arguments' histograms. The kernel
  counts pairs of base-16 digits of the bin, 131072 values at a time, in a 16 × 16 table it carries across the
  256 tiles of an argument; the reference adds each value's weight at its bin. A clipped bin is below 256, so it is
  determined by its two digits: the table's cell `(b / 16, b % 16)` is the reference's bin `b`. Sums of zeros and
  ones re-associate freely on the extended reals, so no finiteness is used.
-/
import proofs.«135395_j89893665505443_1_alg».proof.Defs
import proofs.«135395_j89893665505443_1_alg».proof.Proof.Gen.Kernel
import proofs.«135395_j89893665505443_1_alg».proof.Proof.Gen.Kernel.Frame
import proofs.«135395_j89893665505443_1_alg».proof.Proof.Gen.KernelIdeal
import proofs.«135395_j89893665505443_1_alg».proof.Proof.Gen.KernelIdeal.Frame
import proofs.«135395_j89893665505443_1_alg».proof.Proof.Gen.ReferenceIdeal
import proofs.«135395_j89893665505443_1_alg».proof.Proof.Gen.ReferenceIdeal.Run
import proofs.«135395_j89893665505443_1_alg».proof.Proof.Gen.Pre_finite_inputs
import proofs.«135395_j89893665505443_1_alg».proof.Proof.ResultArray
import proofs.«135395_j89893665505443_1_alg».proof.Proof.HostTail
import proofs.«135395_j89893665505443_1_alg».proof.Proof.RefHistogram
import Idealize.ShloMosaic.Adequacy
import Idealize.ShloMosaic.Init

noncomputable section

open scoped BigOperators

namespace Cert.Proof

open Idealize.ShloMosaic Idealize.ShloMosaic.TcCoe Idealize.SL.Sem Idealize.ShloMosaic.ValueIdx
open Cert.Hist

/-! ## The kernel's rows are the reference's histograms -/

section Rows

open Cert.KernelIdeal Cert.KernelIdeal.Gen Cert.KernelIdeal.InputTile Cert.KernelIdeal.Result Cert.KernelIdeal.Tail

variable (m : (ℓ : Loc nD τ sig) → Buf (Elt Ideal) ℓ)

/-- A row's bin `b`, as a sum of weights over the elements of its argument whose bin word is `b`: the digits
    `(b / 16, b % 16)` name `b`. -/
theorem cell_eq_bin (x : SArg.Idx → EReal) (b : Fin 256) :
    ∑ e : Fin 33554432, hit (flat x e.val) (⟨b.val / 16, by have := b.isLt; omega⟩ : Fin 16) (⟨b.val % 16, Nat.mod_lt _ (by decide)⟩ : Fin 16)
      = ∑ e ∈ Finset.univ.filter (fun e : Fin 33554432 => (binWord (flat x e.val)).toInt = (b.val : ℤ)), weight (flat x e.val) := by
  rw [sum_hit_eq_sum_filter (fun e : Fin 33554432 => flat x e.val)]
  have e : 16 * (b.val / 16) + b.val % 16 = b.val := Nat.div_add_mod b.val 16
  show ∑ e ∈ Finset.univ.filter (fun e : Fin 33554432 => (binWord (flat x e.val)).toInt = ((16 * (b.val / 16) + b.val % 16 : ℕ) : ℤ)), weight (flat x e.val) = _
  rw [e]

theorem row0_counts (c : Dev nD) : row0 (counts m c) = Cert.ReferenceIdeal.RefValue.refHist (m ((c : Thread nD τ).loc main_arg0)) := by
  funext j
  obtain ⟨b, rfl⟩ : ∃ b : Fin 256, j = ix1 b := ⟨j 0, eq_ix1 j⟩
  rw [row0_apply, counts_apply, Cert.ReferenceIdeal.RefValue.refHist_apply]
  have ha : argOf m c (0 : Fin 2).val = m ((c : Thread nD τ).loc main_arg0) := by unfold argOf; exact if_pos rfl
  rw [ha]
  exact cell_eq_bin _ b

theorem row1_counts (c : Dev nD) : row1 (counts m c) = Cert.ReferenceIdeal.RefValue.refHist (m ((c : Thread nD τ).loc main_arg1)) := by
  funext j
  obtain ⟨b, rfl⟩ : ∃ b : Fin 256, j = ix1 b := ⟨j 0, eq_ix1 j⟩
  rw [row1_apply, counts_apply, Cert.ReferenceIdeal.RefValue.refHist_apply]
  have ha : argOf m c (1 : Fin 2).val = m ((c : Thread nD τ).loc main_arg1) := by unfold argOf; exact if_neg (by decide)
  rw [ha]
  exact cell_eq_bin _ b

/-- The kernel's program, run: its result is the closing stretch of the two arguments' histograms, and its
    arguments are unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30)
          = entropyGap (Cert.ReferenceIdeal.RefValue.refHist (m ((c : Thread nD τ).loc main_arg0)))
              (Cert.ReferenceIdeal.RefValue.refHist (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v30 (Pipeline.mem_restRefs_of main_v30 (by decide) (by decide))).trans
        ((tail_eq m c).trans (by rw [final, row0_counts, row1_counts])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Rows

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the closing stretch of the same two histograms. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [show Cert.ReferenceIdeal.Value.res_main_v53 m' c = Cert.ReferenceIdeal.Value.res_out0 m' c from rfl,
    Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
